-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16x11 : Shape := ⟨2, ![16, 11]⟩
abbrev S11x256 : Shape := ⟨2, ![11, 256]⟩
abbrev S256 : Shape := ⟨1, ![256]⟩
abbrev S256x256 : Shape := ⟨2, ![256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S16x11 : S_.BroadcastsInDim S16x11 (![] : Fin 0 → Fin S16x11.rank)
  reducesTo_S16x11_S_d0_1 : S16x11.ReducesTo [0, 1] S_
  bcast_S_S11x256 : S_.BroadcastsInDim S11x256 (![] : Fin 0 → Fin S11x256.rank)
  reducesTo_S11x256_S_d0_1 : S11x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part7 {F : FTy → Type} [FloatOps F] (main_arg25 : FVec F S256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  main_v128

def fn_part6 {F : FTy → Type} [FloatOps F] (main_arg21 : FVec F S256 .f32) (main_arg22 : FVec F S256x256 .f32) (main_arg23 : FVec F S256 .f32) (main_arg24 : FVec F S256x256 .f32) (main_arg25 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg24
  fn_part7 (F := F) main_arg25 main_v118 main_v119

def fn_part5 {F : FTy → Type} [FloatOps F] (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16x64x256x256 .f32) (main_arg1 : FVec F S16x11 .f32) (main_arg2 : FVec F S11x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S16x11 .f32 := Host.absf main_arg1
  let main_cst_0 : FVec F S_ .f32 := constant S_ .f32 0x7F800000#32
  let main_v5 : FVec F S16x11 .f32 := broadcastInDim S16x11 ![] bcast_S_S16x11 main_cst_0
  let main_v6 : IVec S16x11 1 := cmpf .olt main_v4 main_v5
  let main_c_1 : IVec S_ 1 := constantI S_ 1 1#1
  let main_v7 : IVec S_ 1 := (fun x v => Host.reduce IntOp.andi x v reducesTo_S16x11_S_d0_1 h_S_) main_v6 main_c_1
  let main_v8 : IVec S_ 1 := andi main_v3 main_v7
  let main_v9 : FVec F S11x256 .f32 := Host.absf main_arg2
  let main_cst_2 : FVec F S_ .f32 := constant S_ .f32 0x7F800000#32
  let main_v10 : FVec F S11x256 .f32 := broadcastInDim S11x256 ![] bcast_S_S11x256 main_cst_2
  let main_v11 : IVec S11x256 1 := cmpf .olt main_v9 main_v10
  let main_c_3 : IVec S_ 1 := constantI S_ 1 1#1
  let main_v12 : IVec S_ 1 := (fun x v => Host.reduce IntOp.andi x v reducesTo_S11x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16x64x256x256 : Shape := ⟨4, ![16, 64, 256, 256]⟩
abbrev S16x11 : Shape := ⟨2, ![16, 11]⟩
abbrev S11x256 : Shape := ⟨2, ![11, 256]⟩
abbrev S256 : Shape := ⟨1, ![256]⟩
abbrev S256x256 : Shape := ⟨2, ![256, 256]⟩
abbrev S1x256 : Shape := ⟨2, ![1, 256]⟩
abbrev S16x1x256 : Shape := ⟨3, ![16, 1, 256]⟩
abbrev S16x256 : Shape := ⟨2, ![16, 256]⟩
abbrev S1x32x256x256 : Shape := ⟨4, ![1, 32, 256, 256]⟩
abbrev S1x1x256 : Shape := ⟨3, ![1, 1, 256]⟩
abbrev S32x256x256 : Shape := ⟨3, ![32, 256, 256]⟩
abbrev S32 : Shape := ⟨1, ![32]⟩
abbrev S32x1x1 : Shape := ⟨3, ![32, 1, 1]⟩
abbrev S256x1 : Shape := ⟨2, ![256, 1]⟩
abbrev S1x256x1 : Shape := ⟨3, ![1, 256, 1]⟩

abbrev nBuf : Space → Nat
  | .hbm => 41
  | .vmem => 35
  | .smem => 0
  | _ => 0

abbrev bufTy : (tb : Table) → Fin (tcTables nBuf tb) → BufTy
  | .hbm, ⟨0, _⟩ => ⟨S16x64x256x256, .f32⟩
  | .hbm, ⟨1, _⟩ => ⟨S16x11, .f32⟩
  | .hbm, ⟨2, _⟩ => ⟨S11x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S16x1x256, .f32⟩
  | .hbm, ⟨39, _⟩ => ⟨S16x1x256, .f32⟩
  | .hbm, ⟨40, _⟩ => ⟨S16x64x256x256, .f32⟩
  | .local _ .vmem, ⟨0, _⟩ => ⟨S16x11, .f32⟩
  | .local _ .vmem, ⟨1, _⟩ => ⟨S11x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S16x1x256, .f32⟩
  | .local _ .vmem, ⟨26, _⟩ => ⟨S16x1x256, .f32⟩
  | .local _ .vmem, ⟨27, _⟩ => ⟨S1x32x256x256, .f32⟩
  | .local _ .vmem, ⟨28, _⟩ => ⟨S1x32x256x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x32x256x256, .f32⟩
  | .local _ .vmem, ⟨34, _⟩ => ⟨S1x32x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12_0 : Ref sig .tc := ⟨.hbm, 38, rfl⟩
abbrev main_call0_v12_1 : Ref sig .tc := ⟨.hbm, 39, rfl⟩
abbrev main_v0 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem3_1 : DmaSem sig := 34

abbrev nD : Nat := 1
abbrev τ : Topo := Topo.v7x

variable {F : FTy → Type} [FloatOps F]

abbrev grid0 : Pipeline.Grid := .none

abbrev stage0_0 : Fin 1 → Memref sig .tc .vmem S16x11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S16x1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S16x1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x32x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S256_S1x256 : S256.ShapeCasts S1x256
  inb_S16x11_S16x11_0_0 : ∀ a, (![0, 0] : Fin 2 → Nat) a + S16x11.size a ≤ S16x11.size a
  h_S16x11 : 0 < S16x11.numel
  inb_S11x256_S11x256_0_0 : ∀ a, (![0, 0] : Fin 2 → Nat) a + S11x256.size a ≤ S11x256.size a
  h_S11x256 : 0 < S11x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S256x256_S256x256_0_0 : ∀ a, (![0, 0] : Fin 2 → Nat) a + S256x256.size a ≤ S256x256.size a
  h_S256x256 : 0 < S256x256.numel
  shapeCasts_S16x256_S16x1x256 : S16x256.ShapeCasts S16x1x256
  inb_S16x1x256_S16x1x256_0_0_0 : ∀ a, (![0, 0, 0] : Fin 3 → Nat) a + S16x1x256.size a ≤ S16x1x256.size a
  h_S16x1x256 : 0 < S16x1x256.numel
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  reduces_S32x256x256_S32 : S32x256x256.Reduces [1, 2] S32
  shapeCasts_S32_S32x1x1 : S32.ShapeCasts S32x1x1
  broadcasts_S32x1x1_S32x256x256 : S32x1x1.Broadcasts S32x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  transposes_S1x256_p1_0_S256x1 : S1x256.Transposes [1, 0] S256x1
  shapeCasts_S256x1_S1x256x1 : S256x1.ShapeCasts S1x256x1
  broadcasts_S1x256x1_S32x256x256 : S1x256x1.Broadcasts S32x256x256
  shapeCasts_S32x256x256_S1x32x256x256 : S32x256x256.ShapeCasts S1x32x256x256
  dot_S16x11_S11x256_S16x256_1_0_0_1_n_n_wf : DotDims.WF S16x11 S11x256 S16x256 [1] [0] [0] [1] [] []
  dot_S16x256_S256x256_S16x256_1_0_0_1_n_n_wf : DotDims.WF S16x256 S256x256 S16x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256x256.size a ≤ S16x64x256x256.size a
  hwx1_0 : ∀ i : grid1.Coords, EltTy.bits .f32 = 32 ∨ (Rect.block (s := S16x64x256x256) S1x32x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256.size a ≤ S16x1x256.size a
  hwx1_1 : ∀ i : grid1.Coords, EltTy.bits .f32 = 32 ∨ (Rect.block (s := S16x1x256) S1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S16x1x256.size a
  hwx1_2 : ∀ i : grid1.Coords, EltTy.bits .f32 = 32 ∨ (Rect.block (s := S16x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x256x256.size a ≤ S16x64x256x256.size a
  hwx1_3 : ∀ i : grid1.Coords, EltTy.bits .f32 = 32 ∨ (Rect.block (s := S16x64x256x256) S1x32x256x256.size (cc1_transform_3 i) (hinb1_3 i)).WholeWords (EltTy.packing .f32)

variable [Facts₀]

def dot_S16x11_S11x256_S16x256_1_0_0_1_n_n : DotDims S16x11 S11x256 S16x256 where
  lhsContracting := [1]
  rhsContracting := [0]
  lhsNonContracting := [0]
  rhsNonContracting := [1]
  lhsBatch := []
  rhsBatch := []
  wf := dot_S16x11_S11x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_call0_v1) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_call0_v2) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_call0_v3) false false (stage0_8 0) (sem0_8 0) (Memref.isWhole_whole _) (hstage0_8 0)

abbrev win0_9 : Pipeline.Window sig grid0 :=
  Pipeline.Window.whole (Memref.whole main_arg10) false false (stage0_9 0) (sem0_9 0) (Memref.isWhole_whole _) (hstage0_9 0)

abbrev win0_10 : Pipeline.Window sig grid0 :=
  Pipeline.Window.whole (Memref.whole main_call0_v4) false false (stage0_10 0) (sem0_10 0) (Memref.isWhole_whole _) (hstage0_10 0)

abbrev win0_11 : Pipeline.Window sig grid0 :=
  Pipeline.Window.whole (Memref.whole main_arg12) false false (stage0_11 0) (sem0_11 0) (Memref.isWhole_whole _) (hstage0_11 0)

abbrev win0_12 : Pipeline.Window sig grid0 :=
  Pipeline.Window.whole (Memref.whole main_call0_v5) false false (stage0_12 0) (sem0_12 0) (Memref.isWhole_whole _) (hstage0_12 0)

abbrev win0_13 : Pipeline.Window sig grid0 :=
  Pipeline.Window.whole (Memref.whole main_arg14) false false (stage0_13 0) (sem0_13 0) (Memref.isWhole_whole _) (hstage0_13 0)

abbrev win0_14 : Pipeline.Window sig grid0 :=
  Pipeline.Window.whole (Memref.whole main_call0_v6) false false (stage0_14 0) (sem0_14 0) (Memref.isWhole_whole _) (hstage0_14 0)

abbrev win0_15 : Pipeline.Window sig grid0 :=
  Pipeline.Window.whole (Memref.whole main_arg16) false false (stage0_15 0) (sem0_15 0) (Memref.isWhole_whole _) (hstage0_15 0)

abbrev win0_16 : Pipeline.Window sig grid0 :=
  Pipeline.Window.whole (Memref.whole main_call0_v7) false false (stage0_16 0) (sem0_16 0) (Memref.isWhole_whole _) (hstage0_16 0)

abbrev win0_17 : Pipeline.Window sig grid0 :=
  Pipeline.Window.whole (Memref.whole main_arg18) false false (stage0_17 0) (sem0_17 0) (Memref.isWhole_whole _) (hstage0_17 0)

abbrev win0_18 : Pipeline.Window sig grid0 :=
  Pipeline.Window.whole (Memref.whole main_call0_v8) false false (stage0_18 0) (sem0_18 0) (Memref.isWhole_whole _) (hstage0_18 0)

abbrev win0_19 : Pipeline.Window sig grid0 :=
  Pipeline.Window.whole (Memref.whole main_arg20) false false (stage0_19 0) (sem0_19 0) (Memref.isWhole_whole _) (hstage0_19 0)

abbrev win0_20 : Pipeline.Window sig grid0 :=
  Pipeline.Window.whole (Memref.whole main_call0_v9) false false (stage0_20 0) (sem0_20 0) (Memref.isWhole_whole _) (hstage0_20 0)

abbrev win0_21 : Pipeline.Window sig grid0 :=
  Pipeline.Window.whole (Memref.whole main_arg22) false false (stage0_21 0) (sem0_21 0) (Memref.isWhole_whole _) (hstage0_21 0)

abbrev win0_22 : Pipeline.Window sig grid0 :=
  Pipeline.Window.whole (Memref.whole main_call0_v10) false false (stage0_22 0) (sem0_22 0) (Memref.isWhole_whole _) (hstage0_22 0)

abbrev win0_23 : Pipeline.Window sig grid0 :=
  Pipeline.Window.whole (Memref.whole main_arg24) false false (stage0_23 0) (sem0_23 0) (Memref.isWhole_whole _) (hstage0_23 0)

abbrev win0_24 : Pipeline.Window sig grid0 :=
  Pipeline.Window.whole (Memref.whole main_call0_v11) false false (stage0_24 0) (sem0_24 0) (Memref.isWhole_whole _) (hstage0_24 0)

abbrev win0_25 : Pipeline.Window sig grid0 :=
  Pipeline.Window.whole (Memref.whole main_call0_v12_0) true false (stage0_25 0) (sem0_25 0) (Memref.isWhole_whole _) (hstage0_25 0)

abbrev win0_26 : Pipeline.Window sig grid0 :=
  Pipeline.Window.whole (Memref.whole main_call0_v12_1) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_arg0) S1x32x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12_0) S1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12_1) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x32x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S16x11 : Shape := ⟨2, ![16, 11]⟩
abbrev S11x256 : Shape := ⟨2, ![11, 256]⟩
abbrev S256 : Shape := ⟨1, ![256]⟩
abbrev S256x256 : Shape := ⟨2, ![256, 256]⟩
abbrev S_ : Shape := ⟨0, ![]⟩
abbrev S16x64 : Shape := ⟨2, ![16, 64]⟩
abbrev S16x64x1x1 : Shape := ⟨4, ![16, 64, 1, 1]⟩
abbrev S16x256 : Shape := ⟨2, ![16, 256]⟩
abbrev S1x256 : Shape := ⟨2, ![1, 256]⟩
abbrev S16x1x256x1 : Shape := ⟨4, ![16, 1, 256, 1]⟩

abbrev nBuf : Space → Nat
  | .hbm => 136
  | .vmem => 0
  | .smem => 0
  | _ => 0

abbrev hbmTy0_0 (i : Nat) : BufTy := match i % 128 with
  | 0 => ⟨S16x64x256x256, .f32⟩
  | 1 => ⟨S16x11, .f32⟩
  | 2 => ⟨S11x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S256x256, .f32⟩
  | 25 => ⟨S256, .f32⟩
  | 26 => ⟨S_, .f32⟩
  | 27 => ⟨S16x64, .f32⟩
  | 28 => ⟨S16x64x1x1, .f32⟩
  | 29 => ⟨S_, .f32⟩
  | 30 => ⟨S16x64x1x1, .f32⟩
  | 31 => ⟨S16x64x1x1, .f32⟩
  | 32 => ⟨S16x64x256x256, .f32⟩
  | 33 => ⟨S16x64x256x256, .f32⟩
  | 34 => ⟨S16x64x256x256, .f32⟩
  | 35 => ⟨S_, .f32⟩
  | 36 => ⟨S16x64, .f32⟩
  | 37 => ⟨S16x64x1x1, .f32⟩
  | 38 => ⟨S_, .f32⟩
  | 39 => ⟨S16x64x1x1, .f32⟩
  | 40 => ⟨S16x64x1x1, .f32⟩
  | 41 => ⟨S16x64x256x256, .f32⟩
  | 42 => ⟨S16x64x256x256, .f32⟩
  | 43 => ⟨S_, .f32⟩
  | 44 => ⟨S16x64x1x1, .f32⟩
  | 45 => ⟨S16x64x1x1, .f32⟩
  | 46 => ⟨S16x64x1x1, .f32⟩
  | 47 => ⟨S16x64x256x256, .f32⟩
  | 48 => ⟨S16x64x256x256, .f32⟩
  | 49 => ⟨S16x256, .f32⟩
  | 50 => ⟨S1x256, .f32⟩
  | 51 => ⟨S16x256, .f32⟩
  | 52 => ⟨S16x256, .f32⟩
  | 53 => ⟨S_, .f32⟩
  | 54 => ⟨S16x256, .f32⟩
  | 55 => ⟨S16x256, .f32⟩
  | 56 => ⟨S16x256, .f32⟩
  | 57 => ⟨S1x256, .f32⟩
  | 58 => ⟨S16x256, .f32⟩
  | 59 => ⟨S16x256, .f32⟩
  | 60 => ⟨S_, .f32⟩
  | 61 => ⟨S16x256, .f32⟩
  | 62 => ⟨S16x256, .f32⟩
  | 63 => ⟨S16x256, .f32⟩
  | 64 => ⟨S1x256, .f32⟩
  | 65 => ⟨S16x256, .f32⟩
  | 66 => ⟨S16x256, .f32⟩
  | 67 => ⟨S_, .f32⟩
  | 68 => ⟨S16x256, .f32⟩
  | 69 => ⟨S16x256, .f32⟩
  | 70 => ⟨S16x256, .f32⟩
  | 71 => ⟨S1x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S1x256, .f32⟩
  | 79 => ⟨S16x256, .f32⟩
  | 80 => ⟨S16x256, .f32⟩
  | 81 => ⟨S_, .f32⟩
  | 82 => ⟨S16x256, .f32⟩
  | 83 => ⟨S16x256, .f32⟩
  | 84 => ⟨S16x256, .f32⟩
  | 85 => ⟨S1x256, .f32⟩
  | 86 => ⟨S16x256, .f32⟩
  | 87 => ⟨S16x256, .f32⟩
  | 88 => ⟨S_, .f32⟩
  | 89 => ⟨S16x256, .f32⟩
  | 90 => ⟨S16x256, .f32⟩
  | 91 => ⟨S16x256, .f32⟩
  | 92 => ⟨S1x256, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S16x256, .f32⟩
  | 99 => ⟨S1x256, .f32⟩
  | 100 => ⟨S16x256, .f32⟩
  | 101 => ⟨S16x256, .f32⟩
  | 102 => ⟨S16x256, .f32⟩
  | 103 => ⟨S1x256, .f32⟩
  | 104 => ⟨S16x256, .f32⟩
  | 105 => ⟨S16x256, .f32⟩
  | 106 => ⟨S_, .f32⟩
  | 107 => ⟨S16x256, .f32⟩
  | 108 => ⟨S16x256, .f32⟩
  | 109 => ⟨S16x256, .f32⟩
  | 110 => ⟨S1x256, .f32⟩
  | 111 => ⟨S16x256, .f32⟩
  | 112 => ⟨S16x256, .f32⟩
  | 113 => ⟨S_, .f32⟩
  | 114 => ⟨S16x256, .f32⟩
  | 115 => ⟨S16x256, .f32⟩
  | 116 => ⟨S16x256, .f32⟩
  | 117 => ⟨S1x256, .f32⟩
  | 118 => ⟨S16x256, .f32⟩
  | 119 => ⟨S16x256, .f32⟩
  | 120 => ⟨S_, .f32⟩
  | 121 => ⟨S16x256, .f32⟩
  | 122 => ⟨S16x256, .f32⟩
  | 123 => ⟨S16x256, .f32⟩
  | 124 => ⟨S1x256, .f32⟩
  | 125 => ⟨S16x256, .f32⟩
  | 126 => ⟨S16x256, .f32⟩
  | 127 => ⟨S16x1x256x1, .f32⟩
  | _ => ⟨S16x64x256x256, .f32⟩

abbrev hbmTy0_1 (i : Nat) : BufTy := match i % 128 with
  | 0 => ⟨S16x1x256x1, .f32⟩
  | 1 => ⟨S_, .f32⟩
  | 2 => ⟨S16x1x256x1, .f32⟩
  | 3 => ⟨S16x1x256x1, .f32⟩
  | 4 => ⟨S16x64x256x256, .f32⟩
  | 5 => ⟨S16x64x256x256, .f32⟩
  | 6 => ⟨S16x64x256x256, .f32⟩
  | 7 => ⟨S16x64x256x256, .f32⟩
  | _ => ⟨S16x64x256x256, .f32⟩

abbrev hbmTy (i : Nat) : BufTy := match i / 128 with
  | 0 => hbmTy0_0 i
  | 1 => hbmTy0_1 i
  | _ => ⟨S16x64x256x256, .f32⟩

abbrev bufTy : (tb : Table) → Fin (tcTables nBuf tb) → BufTy
  | .hbm, ⟨i, _⟩ => hbmTy i
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call0_cst : Ref sig .tc := ⟨.hbm, 53, rfl⟩
abbrev main_call0_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call1_cst : Ref sig .tc := ⟨.hbm, 60, rfl⟩
abbrev main_call1_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call2_cst : Ref sig .tc := ⟨.hbm, 67, rfl⟩
abbrev main_call2_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call3_cst : Ref sig .tc := ⟨.hbm, 74, rfl⟩
abbrev main_call3_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call4_cst : Ref sig .tc := ⟨.hbm, 81, rfl⟩
abbrev main_call4_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call5_cst : Ref sig .tc := ⟨.hbm, 88, rfl⟩
abbrev main_call5_v0 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call6_cst : Ref sig .tc := ⟨.hbm, 95, rfl⟩
abbrev main_call6_v0 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_call7_cst : Ref sig .tc := ⟨.hbm, 106, rfl⟩
abbrev main_call7_v0 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call8_cst : Ref sig .tc := ⟨.hbm, 113, rfl⟩
abbrev main_call8_v0 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_call9_cst : Ref sig .tc := ⟨.hbm, 120, rfl⟩
abbrev main_call9_v0 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_4 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩

abbrev nD : Nat := 1
abbrev τ : Topo := Topo.v7x

variable {F : FTy → Type} [FloatOps F]

class Facts₀ : Prop where
  reducesTo_S16x64x256x256_S16x64_d2_3 : S16x64x256x256.ReducesTo [2, 3] S16x64
  h_S_ : 0 < S_.numel
  bcast_S16x64_S16x64x1x1_0_1 : S16x64.BroadcastsInDim S16x64x1x1 (![0, 1] : Fin 2 → Fin S16x64x1x1.rank)
  bcast_S_S16x64x1x1 : S_.BroadcastsInDim S16x64x1x1 (![] : Fin 0 → Fin S16x64x1x1.rank)
  bcast_S16x64x1x1_S16x64x256x256_0_1_2_3 : S16x64x1x1.BroadcastsInDim S16x64x256x256 (![0, 1, 2, 3] : Fin 4 → Fin S16x64x256x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S16x256_S16x1x256x1_0_2 : S16x256.BroadcastsInDim S16x1x256x1 (![0, 2] : Fin 2 → Fin S16x1x256x1.rank)
  bcast_S_S16x1x256x1 : S_.BroadcastsInDim S16x1x256x1 (![] : Fin 0 → Fin S16x1x256x1.rank)
  bcast_S16x1x256x1_S16x64x256x256_0_1_2_3 : S16x1x256x1.BroadcastsInDim S16x64x256x256 (![0, 1, 2, 3] : Fin 4 → Fin S16x64x256x256.rank)
  dot_S16x11_S11x256_S16x256_1_0_0_1_n_n_wf : DotDims.WF S16x11 S11x256 S16x256 [1] [0] [0] [1] [] []
  dot_S16x256_S256x256_S16x256_1_0_0_1_n_n_wf : DotDims.WF S16x256 S256x256 S16x256 [1] [0] [0] [1] [] []

variable [Facts₀]

def dot_S16x11_S11x256_S16x256_1_0_0_1_n_n : DotDims S16x11 S11x256 S16x256 where
  lhsContracting := [1]
  rhsContracting := [0]
  lhsNonContracting := [0]
  rhsNonContracting := [1]
  lhsBatch := []
  rhsBatch := []
  wf := dot_S16x11_S11x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

class Facts : Prop extends Facts₀ where

variable [Facts]
-- ==== Proof.Region0.lean ====
/-
  What the conditioning network's region leaves in its two result arrays.

  The region has no grid: its one point loads every operand whole, and stores each result whole. So each result
  array ends at the body's arithmetic — four layers `max(a·W + b, 0)` shared by both branches, then per branch three
  more such layers and a last one without the maximum — of the operand arrays as the region finds them, recast from
  [16, 256] to [16, 1, 256].
-/
import proofs.«167544_g7868380086984_feedfinal_290_5_alg».proof.Proof.Gen.KernelIdeal.Frame
import Idealize.ShloMosaic.Lib.Pipeline.Value

set_option maxRecDepth 16384

noncomputable section

namespace Cert.KernelIdeal.RegionValues

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- Through a window whose block is its whole array, at block index 0 on every axis, an element of the block sits
    in the array at its own coordinates: reading the array through the block is reading the array. -/
local macro "whole_window" : tactic => `(tactic|
  (funext j
   refine congrArg _ (funext fun a => Fin.ext ?_)
   show 0 * _ + 1 * (j a).val = (j a).val
   omega))

/-! ## Each operand's block is its array -/

theorem blk0_0 (c : Dev nD) (t : Fin cfg0.N) : iblk0 V c 0 t = V c main_arg1 := by
  show (fun j => V c main_arg1 (((cfg0.win 0).blk t).view.emb j)) = _
  whole_window
theorem blk0_1 (c : Dev nD) (t : Fin cfg0.N) : iblk0 V c 1 t = V c main_arg2 := by
  show (fun j => V c main_arg2 (((cfg0.win 1).blk t).view.emb j)) = _
  whole_window
theorem blk0_2 (c : Dev nD) (t : Fin cfg0.N) : iblk0 V c 2 t = V c main_call0_v0 := by
  show (fun j => V c main_call0_v0 (((cfg0.win 2).blk t).view.emb j)) = _
  whole_window
theorem blk0_3 (c : Dev nD) (t : Fin cfg0.N) : iblk0 V c 3 t = V c main_arg4 := by
  show (fun j => V c main_arg4 (((cfg0.win 3).blk t).view.emb j)) = _
  whole_window
theorem blk0_4 (c : Dev nD) (t : Fin cfg0.N) : iblk0 V c 4 t = V c main_call0_v1 := by
  show (fun j => V c main_call0_v1 (((cfg0.win 4).blk t).view.emb j)) = _
  whole_window
theorem blk0_5 (c : Dev nD) (t : Fin cfg0.N) : iblk0 V c 5 t = V c main_arg6 := by
  show (fun j => V c main_arg6 (((cfg0.win 5).blk t).view.emb j)) = _
  whole_window
theorem blk0_6 (c : Dev nD) (t : Fin cfg0.N) : iblk0 V c 6 t = V c main_call0_v2 := by
  show (fun j => V c main_call0_v2 (((cfg0.win 6).blk t).view.emb j)) = _
  whole_window
theorem blk0_7 (c : Dev nD) (t : Fin cfg0.N) : iblk0 V c 7 t = V c main_arg8 := by
  show (fun j => V c main_arg8 (((cfg0.win 7).blk t).view.emb j)) = _
  whole_window
theorem blk0_8 (c : Dev nD) (t : Fin cfg0.N) : iblk0 V c 8 t = V c main_call0_v3 := by
  show (fun j => V c main_call0_v3 (((cfg0.win 8).blk t).view.emb j)) = _
  whole_window
theorem blk0_9 (c : Dev nD) (t : Fin cfg0.N) : iblk0 V c 9 t = V c main_arg10 := by
  show (fun j => V c main_arg10 (((cfg0.win 9).blk t).view.emb j)) = _
  whole_window
theorem blk0_10 (c : Dev nD) (t : Fin cfg0.N) : iblk0 V c 10 t = V c main_call0_v4 := by
  show (fun j => V c main_call0_v4 (((cfg0.win 10).blk t).view.emb j)) = _
  whole_window
theorem blk0_11 (c : Dev nD) (t : Fin cfg0.N) : iblk0 V c 11 t = V c main_arg12 := by
  show (fun j => V c main_arg12 (((cfg0.win 11).blk t).view.emb j)) = _
  whole_window
theorem blk0_12 (c : Dev nD) (t : Fin cfg0.N) : iblk0 V c 12 t = V c main_call0_v5 := by
  show (fun j => V c main_call0_v5 (((cfg0.win 12).blk t).view.emb j)) = _
  whole_window
theorem blk0_13 (c : Dev nD) (t : Fin cfg0.N) : iblk0 V c 13 t = V c main_arg14 := by
  show (fun j => V c main_arg14 (((cfg0.win 13).blk t).view.emb j)) = _
  whole_window
theorem blk0_14 (c : Dev nD) (t : Fin cfg0.N) : iblk0 V c 14 t = V c main_call0_v6 := by
  show (fun j => V c main_call0_v6 (((cfg0.win 14).blk t).view.emb j)) = _
  whole_window
theorem blk0_15 (c : Dev nD) (t : Fin cfg0.N) : iblk0 V c 15 t = V c main_arg16 := by
  show (fun j => V c main_arg16 (((cfg0.win 15).blk t).view.emb j)) = _
  whole_window
theorem blk0_16 (c : Dev nD) (t : Fin cfg0.N) : iblk0 V c 16 t = V c main_call0_v7 := by
  show (fun j => V c main_call0_v7 (((cfg0.win 16).blk t).view.emb j)) = _
  whole_window
theorem blk0_17 (c : Dev nD) (t : Fin cfg0.N) : iblk0 V c 17 t = V c main_arg18 := by
  show (fun j => V c main_arg18 (((cfg0.win 17).blk t).view.emb j)) = _
  whole_window
theorem blk0_18 (c : Dev nD) (t : Fin cfg0.N) : iblk0 V c 18 t = V c main_call0_v8 := by
  show (fun j => V c main_call0_v8 (((cfg0.win 18).blk t).view.emb j)) = _
  whole_window
theorem blk0_19 (c : Dev nD) (t : Fin cfg0.N) : iblk0 V c 19 t = V c main_arg20 := by
  show (fun j => V c main_arg20 (((cfg0.win 19).blk t).view.emb j)) = _
  whole_window
theorem blk0_20 (c : Dev nD) (t : Fin cfg0.N) : iblk0 V c 20 t = V c main_call0_v9 := by
  show (fun j => V c main_call0_v9 (((cfg0.win 20).blk t).view.emb j)) = _
  whole_window
theorem blk0_21 (c : Dev nD) (t : Fin cfg0.N) : iblk0 V c 21 t = V c main_arg22 := by
  show (fun j => V c main_arg22 (((cfg0.win 21).blk t).view.emb j)) = _
  whole_window
theorem blk0_22 (c : Dev nD) (t : Fin cfg0.N) : iblk0 V c 22 t = V c main_call0_v10 := by
  show (fun j => V c main_call0_v10 (((cfg0.win 22).blk t).view.emb j)) = _
  whole_window
theorem blk0_23 (c : Dev nD) (t : Fin cfg0.N) : iblk0 V c 23 t = V c main_arg24 := by
  show (fun j => V c main_arg24 (((cfg0.win 23).blk t).view.emb j)) = _
  whole_window
theorem blk0_24 (c : Dev nD) (t : Fin cfg0.N) : iblk0 V c 24 t = V c main_call0_v11 := by
  show (fun j => V c main_call0_v11 (((cfg0.win 24).blk t).view.emb j)) = _
  whole_window

/-- Reading a [16, 1, 256] array through either result window's block is reading the array. -/
theorem read_out25 (t : Fin cfg0.N) (G : Vec F S16x1x256 .f32) : ((cfg0.win 25).blk t).view.read (Elt F) G = G := by
  show (fun j => G (((cfg0.win 25).blk t).view.emb j)) = _
  whole_window
theorem read_out26 (t : Fin cfg0.N) (G : Vec F S16x1x256 .f32) : ((cfg0.win 26).blk t).view.read (Elt F) G = G := by
  show (fun j => G (((cfg0.win 26).blk t).view.emb j)) = _
  whole_window

/-! ## What the point writes back -/

/-- The scale branch's result: the shared layers, then the branch's four, recast. -/
theorem flushed25 (c : Dev nD) (t : Fin cfg0.N) :
    (dat0 V c).flushed 25 t = ((cfg0.win 25).blk t).view.read (Elt F)
      (k0_pay1 (k0_pay4 (k0_pay3 (V c main_arg1) (V c main_arg2) (V c main_call0_v0) (V c main_arg4) (V c main_call0_v1) (V c main_arg6) (V c main_call0_v2) (V c main_arg8) (V c main_call0_v3)) (V c main_arg10) (V c main_call0_v4) (V c main_arg12) (V c main_call0_v5) (V c main_arg14) (V c main_call0_v6) (V c main_arg16) (V c main_call0_v7))) := by
  rw [read_out25]
  show (cfg0.win 25).cut (grid0.coords t) ((dat0 V c).after 25 t) = _
  rw [after0_25]
  unfold out0_25
  rw [View.canon_unit_zero zeros3]
  simp only [View.ld_unit_zero (S := S16x11) zeros2, View.ld_unit_zero (S := S11x256) zeros2, View.ld_unit_zero (S := S1x256) zeros2, View.ld_unit_zero (S := S256x256) zeros2]
  rw [blk0_0, blk0_1, blk0_2, blk0_3, blk0_4, blk0_5, blk0_6, blk0_7, blk0_8, blk0_9, blk0_10, blk0_11, blk0_12, blk0_13, blk0_14, blk0_15, blk0_16]
  rfl

/-- The shift branch's result: the shared layers, then the branch's four, recast. -/
theorem flushed26 (c : Dev nD) (t : Fin cfg0.N) :
    (dat0 V c).flushed 26 t = ((cfg0.win 26).blk t).view.read (Elt F)
      (k0_pay2 (k0_pay5 (k0_pay3 (V c main_arg1) (V c main_arg2) (V c main_call0_v0) (V c main_arg4) (V c main_call0_v1) (V c main_arg6) (V c main_call0_v2) (V c main_arg8) (V c main_call0_v3)) (V c main_arg18)) (V c main_call0_v8) (V c main_arg20) (V c main_call0_v9) (V c main_arg22) (V c main_call0_v10) (V c main_arg24) (V c main_call0_v11)) := by
  rw [read_out26]
  show (cfg0.win 26).cut (grid0.coords t) ((dat0 V c).after 26 t) = _
  rw [after0_26]
  unfold out0_26
  rw [View.canon_unit_zero zeros3]
  simp only [View.ld_unit_zero (S := S16x11) zeros2, View.ld_unit_zero (S := S11x256) zeros2, View.ld_unit_zero (S := S1x256) zeros2, View.ld_unit_zero (S := S256x256) zeros2]
  rw [blk0_0, blk0_1, blk0_2, blk0_3, blk0_4, blk0_5, blk0_6, blk0_7, blk0_8, blk0_17, blk0_18, blk0_19, blk0_20, blk0_21, blk0_22, blk0_23, blk0_24]
  rfl

/-! ## The arrays after the region -/

/-- The one point's block is the whole of either result array. -/
theorem cover25 (i : S16x1x256.Idx) : ∃ t : Fin cfg0.N, (cfg0.win 25).flush t = true ∧ i ∈ ((cfg0.win 25).blk t).view.set := by
  refine ⟨t0_0, by decide, ?_⟩
  show i ∈ ((View.whole main_call0_v12_0).slice (win0_25.rect t0_0)).set
  rw [View.set_slice_whole, Rect.mem_set_unit]
  intro a
  refine ⟨?_, ?_⟩
  · show 0 * _ ≤ (i a).val
    omega
  · show (i a).val < 0 * _ + S16x1x256.size a
    have := (i a).isLt
    omega
theorem cover26 (i : S16x1x256.Idx) : ∃ t : Fin cfg0.N, (cfg0.win 26).flush t = true ∧ i ∈ ((cfg0.win 26).blk t).view.set := by
  refine ⟨t0_0, by decide, ?_⟩
  show i ∈ ((View.whole main_call0_v12_1).slice (win0_26.rect t0_0)).set
  rw [View.set_slice_whole, Rect.mem_set_unit]
  intro a
  refine ⟨?_, ?_⟩
  · show 0 * _ ≤ (i a).val
    omega
  · show (i a).val < 0 * _ + S16x1x256.size a
    have := (i a).isLt
    omega

/-- THE SCALE ROWS after the region. -/
theorem scale_rows (c : Dev nD) : (dat0 V c).arrAt 25 cfg0.N =
    k0_pay1 (k0_pay4 (k0_pay3 (V c main_arg1) (V c main_arg2) (V c main_call0_v0) (V c main_arg4) (V c main_call0_v1) (V c main_arg6) (V c main_call0_v2) (V c main_arg8) (V c main_call0_v3)) (V c main_arg10) (V c main_call0_v4) (V c main_arg12) (V c main_call0_v5) (V c main_arg14) (V c main_call0_v6) (V c main_arg16) (V c main_call0_v7)) :=
  (dat0 V c).arrAt_eq_of_cover 25 _ (fun t _ => flushed25 V c t) cover25

/-- THE SHIFT ROWS after the region. -/
theorem shift_rows (c : Dev nD) : (dat0 V c).arrAt 26 cfg0.N =
    k0_pay2 (k0_pay5 (k0_pay3 (V c main_arg1) (V c main_arg2) (V c main_call0_v0) (V c main_arg4) (V c main_call0_v1) (V c main_arg6) (V c main_call0_v2) (V c main_arg8) (V c main_call0_v3)) (V c main_arg18)) (V c main_call0_v8) (V c main_arg20) (V c main_call0_v9) (V c main_arg22) (V c main_call0_v10) (V c main_arg24) (V c main_call0_v11) :=
  (dat0 V c).arrAt_eq_of_cover 26 _ (fun t _ => flushed26 V c t) cover26

end Cert.KernelIdeal.RegionValues

end
-- ==== Proof.Spec.lean ====
/-
  Instance normalisation with a conditioning affine map, as one function of the arrays.

  For an array `x` of extents [16, 64, 256, 256] every plane (n, c) has a mean `μ = (Σ_{p,q} x[n,c,p,q]) / 65536`, a
  (biased) variance `σ² = (Σ_{p,q} (x[n,c,p,q] − μ)²) / 65536` and a reciprocal deviation `ρ = (σ² + ε)^(-1/2)`; with two
  arrays `g`, `b` of extents [16, 1, 256] the result at (n, c, p, q) is

      ((x[n,c,p,q] − μ) · ρ) · (1 + g[n,0,p]) + b[n,0,p].

  The quotient, the reciprocal square root and the literals 65536, ε and 1 are the extended-real operations and the
  binary values of the float patterns the programs print; nothing here evaluates them.

  Also here: a sum over the indices of a rank-3 (rank-4) array that share given leading coordinates is the double sum
  over the trailing plane, in any commutative monoid.
-/
import Idealize.ShloMosaic.PureOps.Ideal.Laws
import Idealize.ShloMosaic.Lib.ValueIdx

noncomputable section

open scoped BigOperators

namespace Cert.Spade

open Idealize.ShloMosaic Idealize.ShloMosaic.ValueIdx

/-- The array's index type, and the conditioning rows'. -/
abbrev X4 : Shape := ⟨4, ![16, 64, 256, 256]⟩
abbrev R3 : Shape := ⟨3, ![16, 1, 256]⟩

/-- The number of positions of a plane, 65536, as the float pattern both programs divide by. -/
abbrev planeSize : EReal := Ideal.ofBits .f32 0x47800000#32
/-- The variance's guard ε, as the float pattern both programs add. -/
abbrev eps : EReal := Ideal.ofBits .f32 0x3727C5AC#32
/-- The float pattern of 1. -/
abbrev one : EReal := Ideal.ofBits .f32 0x3F800000#32

/-- The mean of a plane `f`. -/
def pmean (f : Fin 256 → Fin 256 → EReal) : EReal :=
  Ideal.div (∑ p : Fin 256, ∑ q : Fin 256, f p q) planeSize

/-- The biased variance of a plane: the mean of the squared deviations from its mean. -/
def pvar (f : Fin 256 → Fin 256 → EReal) : EReal :=
  Ideal.div (∑ p : Fin 256, ∑ q : Fin 256, (f p q - pmean f) * (f p q - pmean f)) planeSize

/-- The reciprocal standard deviation of a plane, guarded by ε. -/
def prstd (f : Fin 256 → Fin 256 → EReal) : EReal :=
  Ideal.rsqrt (pvar f + eps)

/-- One entry of a plane, normalised, then scaled by `1 + gp` and shifted by `bp`. -/
def planeNorm (f : Fin 256 → Fin 256 → EReal) (gp bp : EReal) (p q : Fin 256) : EReal :=
  ((f p q - pmean f) * prstd f) * (one + gp) + bp

/-- The normalised array under the row-wise affine map `(1 + g) · _ + b`: entry (n, c, p, q) is that of plane (n, c)
    with the scale and shift of row p of sample n. -/
def normAffine (x : X4.Idx → EReal) (g b : R3.Idx → EReal) : X4.Idx → EReal := fun i =>
  planeNorm (fun p q => x (ix4 (i 0) (i 1) p q)) (g (ix3 (i 0) 0 (i 2))) (b (ix3 (i 0) 0 (i 2))) (i 2) (i 3)

/-! ## Sums over a trailing plane -/

section PlaneSums

variable {α : Type} [AddCommMonoid α]

/-- Rank 4: a sum over a finite set of indices that is exactly the plane at (a, b) — the indices with those two leading
    coordinates — is the double sum over the plane. -/
theorem sum_plane4_of_mem {n0 n1 n2 n3 : Nat} (s : Finset (⟨4, ![n0, n1, n2, n3]⟩ : Shape).Idx)
    (a : Fin n0) (b : Fin n1) (hs : ∀ i, i ∈ s ↔ (i 0 = a ∧ i 1 = b))
    (f : (⟨4, ![n0, n1, n2, n3]⟩ : Shape).Idx → α) :
    ∑ i ∈ s, f i = ∑ p : Fin n2, ∑ q : Fin n3, f (ix4 a b p q) := by
  have hback : ∀ i : (⟨4, ![n0, n1, n2, n3]⟩ : Shape).Idx, (i 0 = a ∧ i 1 = b) → ix4 a b (i 2) (i 3) = i := by
    rintro i ⟨e0, e1⟩
    funext d
    match d with
    | ⟨0, _⟩ => exact e0.symm
    | ⟨1, _⟩ => exact e1.symm
    | ⟨2, _⟩ => rfl
    | ⟨3, _⟩ => rfl
  rw [← Fintype.sum_prod_type' (fun (p : Fin n2) (q : Fin n3) => f (ix4 a b p q))]
  refine Finset.sum_bij' (fun i _ => ((i 2, i 3) : Fin n2 × Fin n3)) (fun pq _ => ix4 a b pq.1 pq.2)
    (fun _ _ => Finset.mem_univ _)
    (fun pq _ => (hs _).2 ⟨rfl, rfl⟩)
    (fun i hi => hback i ((hs i).1 hi)) (fun _ _ => rfl) ?_
  intro i hi
  exact congrArg f (hback i ((hs i).1 hi)).symm

/-- Rank 3, one leading coordinate: the same. -/
theorem sum_plane3_of_mem {n0 n1 n2 : Nat} (s : Finset (⟨3, ![n0, n1, n2]⟩ : Shape).Idx)
    (a : Fin n0) (hs : ∀ i, i ∈ s ↔ i 0 = a)
    (f : (⟨3, ![n0, n1, n2]⟩ : Shape).Idx → α) :
    ∑ i ∈ s, f i = ∑ p : Fin n1, ∑ q : Fin n2, f (ix3 a p q) := by
  have hback : ∀ i : (⟨3, ![n0, n1, n2]⟩ : Shape).Idx, i 0 = a → ix3 a (i 1) (i 2) = i := by
    intro i e0
    funext d
    match d with
    | ⟨0, _⟩ => exact e0.symm
    | ⟨1, _⟩ => rfl
    | ⟨2, _⟩ => rfl
  rw [← Fintype.sum_prod_type' (fun (p : Fin n1) (q : Fin n2) => f (ix3 a p q))]
  refine Finset.sum_bij' (fun i _ => ((i 1, i 2) : Fin n1 × Fin n2)) (fun pq _ => ix3 a pq.1 pq.2)
    (fun _ _ => Finset.mem_univ _)
    (fun pq _ => (hs _).2 rfl)
    (fun i hi => hback i ((hs i).1 hi)) (fun _ _ => rfl) ?_
  intro i hi
  exact congrArg f (hback i ((hs i).1 hi)).symm

/-- Rank 3, the set given as the indices satisfying a predicate that says "the leading coordinate is a". -/
theorem sum_plane3 {n0 n1 n2 : Nat} (P : (⟨3, ![n0, n1, n2]⟩ : Shape).Idx → Prop) [DecidablePred P]
    (a : Fin n0) (hP : ∀ i, P i ↔ i 0 = a)
    (f : (⟨3, ![n0, n1, n2]⟩ : Shape).Idx → α) :
    ∑ i ∈ Finset.univ.filter P, f i = ∑ p : Fin n1, ∑ q : Fin n2, f (ix3 a p q) :=
  sum_plane3_of_mem _ a (fun i => by rw [Finset.mem_filter]; exact ⟨fun h => (hP i).1 h.2, fun h => ⟨Finset.mem_univ _, (hP i).2 h⟩⟩) f

end PlaneSums

end Cert.Spade

end
-- ==== Proof.NormBody.lean ====
/-
  The normalising region's arithmetic at one entry of its block.

  The body loads a block [1, 32, 256, 256] of the array and the two conditioning rows [1, 1, 256] of the block's sample,
  and stores, at (0, c, p, q): the entry less its plane's mean, times the plane's reciprocal deviation, times one plus
  the scale row at p, plus the shift row at p. Each plane's sum is a lane reduction over the block's two trailing
  axes — the double sum over the plane —, and the rows reach the block through a transposition and casts that only
  add or drop unit axes.
-/
import proofs.«167544_g7868380086984_feedfinal_290_5_alg».proof.Proof.Gen.KernelIdeal.Skeleton
import proofs.«167544_g7868380086984_feedfinal_290_5_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.NormBody

open Cert.KernelIdeal Cert.KernelIdeal.Gen Cert.Spade
open Idealize.ShloMosaic Idealize.ShloMosaic.ValueIdx

/-! ## The layout operations, each read at the index the body reads it at -/

/-- The lane reduction of a [32, 256, 256] vector over its two trailing axes, at c: the double sum over plane c. -/
theorem plane_sum (v : FVec Ideal S32x256x256 .f32) (h : S32x256x256.Reduces [1, 2] S32) (c : Fin 32) :
    FloatOps.reduceAdd (F := Ideal) [1, 2] h v (ix1 c) = ∑ p : Fin 256, ∑ q : Fin 256, v (ix3 c p q) := by
  show ∑ i ∈ Finset.univ.filter (fun i => h.drop i = ix1 c), v i = _
  refine sum_plane3 _ c (fun i => ?_) v
  have hv : (h.drop i 0 : Nat) = (i 0).val := Shape.Reduces.drop_apply_val_of_eq h i 0 0
  constructor
  · intro e
    rw [e] at hv
    exact Fin.ext hv.symm
  · intro e
    funext b
    match b with
    | ⟨0, _⟩ => exact Fin.ext (hv.trans (congrArg Fin.val e))

/-- [32] recast [32, 1, 1]: entry (c, 0, 0) is entry c. -/
theorem cast_col (u : S32.Idx → EReal) (h : S32.ShapeCasts S32x1x1) (c : Fin 32) :
    shapeCast S32x1x1 u h (ix3 c 0 0) = u (ix1 c) :=
  shapeCast_apply u h _ _ (by
    rw [Shape.rowMajor_val_one, Shape.rowMajor_val_three]
    show (c : Nat) = ((c : Nat) * 1 + 0) * 1 + 0
    omega)

/-- [32, 1, 1] broadcast over the block: entry (c, p, q) is entry (c, 0, 0). -/
theorem bcast_col (w : S32x1x1.Idx → EReal) (h : S32x1x1.Broadcasts S32x256x256) (c : Fin 32) (p q : Fin 256) :
    broadcastTo S32x256x256 w h (ix3 c p q) = w (ix3 c 0 0) :=
  broadcastTo_apply w h _ _ (fun a => match a with
    | ⟨0, _⟩ => by show (c : Nat) = if (32 : Nat) = 1 then 0 else (c : Nat); rw [if_neg (by decide)]
    | ⟨1, _⟩ => by show (0 : Nat) = if (1 : Nat) = 1 then 0 else (p : Nat); rw [if_pos rfl]
    | ⟨2, _⟩ => by show (0 : Nat) = if (1 : Nat) = 1 then 0 else (q : Nat); rw [if_pos rfl])

/-- [1, 256, 1] broadcast over the block: entry (c, p, q) is entry (0, p, 0). -/
theorem bcast_row (w : S1x256x1.Idx → EReal) (h : S1x256x1.Broadcasts S32x256x256) (c : Fin 32) (p q : Fin 256) :
    broadcastTo S32x256x256 w h (ix3 c p q) = w (ix3 0 p 0) :=
  broadcastTo_apply w h _ _ (fun a => match a with
    | ⟨0, _⟩ => by show (0 : Nat) = if (1 : Nat) = 1 then 0 else (c : Nat); rw [if_pos rfl]
    | ⟨1, _⟩ => by show (p : Nat) = if (256 : Nat) = 1 then 0 else (p : Nat); rw [if_neg (by decide)]
    | ⟨2, _⟩ => by show (0 : Nat) = if (1 : Nat) = 1 then 0 else (q : Nat); rw [if_pos rfl])

/-- [256, 1] recast [1, 256, 1]: entry (0, p, 0) is entry (p, 0). -/
theorem cast_row (u : S256x1.Idx → EReal) (h : S256x1.ShapeCasts S1x256x1) (p : Fin 256) :
    shapeCast S1x256x1 u h (ix3 0 p 0) = u (ix2 p 0) :=
  shapeCast_apply u h _ _ (by
    rw [Shape.rowMajor_val_two, Shape.rowMajor_val_three]
    show (p : Nat) * 1 + 0 = (0 * 256 + (p : Nat)) * 1 + 0
    omega)

/-- [1, 256] transposed [256, 1]: entry (p, 0) is entry (0, p). -/
theorem tr_row (u : S1x256.Idx → EReal) (h : S1x256.Transposes [1, 0] S256x1) (p : Fin 256) :
    transpose S256x1 [1, 0] u h (ix2 p 0) = u (ix2 0 p) :=
  transpose_apply [1, 0] u h _ _ (fun b => match b with
    | ⟨0, _⟩ => rfl
    | ⟨1, _⟩ => rfl)

/-- [1, 1, 256] recast [1, 256]: entry (0, p) is entry (0, 0, p). -/
theorem drop_row (u : S1x1x256.Idx → EReal) (h : S1x1x256.ShapeCasts S1x256) (p : Fin 256) :
    shapeCast S1x256 u h (ix2 0 p) = u (ix3 0 0 p) :=
  shapeCast_apply u h _ _ (by
    rw [Shape.rowMajor_val_three, Shape.rowMajor_val_two]
    show (0 * 1 + 0) * 256 + (p : Nat) = 0 * 256 + (p : Nat)
    omega)

/-- The block recast [32, 256, 256]: entry (c, p, q) is entry (0, c, p, q). -/
theorem drop_blk (u : S1x32x256x256.Idx → EReal) (h : S1x32x256x256.ShapeCasts S32x256x256) (c : Fin 32) (p q : Fin 256) :
    shapeCast S32x256x256 u h (ix3 c p q) = u (ix4 0 c p q) :=
  shapeCast_apply u h _ _ (by
    rw [Shape.rowMajor_val_four, Shape.rowMajor_val_three]
    show ((0 * 32 + (c : Nat)) * 256 + (p : Nat)) * 256 + (q : Nat) = ((c : Nat) * 256 + (p : Nat)) * 256 + (q : Nat)
    omega)

/-- [32, 256, 256] recast as the block: entry (0, c, p, q) is entry (c, p, q). -/
theorem add_blk (u : S32x256x256.Idx → EReal) (h : S32x256x256.ShapeCasts S1x32x256x256) (c : Fin 32) (p q : Fin 256) :
    shapeCast S1x32x256x256 u h (ix4 0 c p q) = u (ix3 c p q) :=
  shapeCast_apply u h _ _ (by
    rw [Shape.rowMajor_val_three, Shape.rowMajor_val_four]
    show ((c : Nat) * 256 + (p : Nat)) * 256 + (q : Nat) = ((0 * 32 + (c : Nat)) * 256 + (p : Nat)) * 256 + (q : Nat)
    omega)

/-- The reciprocal square root is taken entry by entry. -/
theorem rsqrt_apply {s : Shape} (a : FVec Ideal s .f32) (i : s.Idx) : rsqrt a i = Ideal.rsqrt (a i) := rfl

/-! ## The body at an entry -/

/-- At (0, c, p, q) the body stores the entry of plane c of its block, normalised by that plane's mean and
    deviation, then scaled and shifted by the rows' entries at p. -/
theorem body_at (x0 : Vec Ideal S1x32x256x256 .f32) (x1 x2 : Vec Ideal S1x1x256 .f32) (c : Fin 32) (p q : Fin 256) :
    k1_pay1 x0 x1 x2 (ix4 0 c p q)
      = planeNorm (fun p q => x0 (ix4 0 c p q)) (x1 (ix3 0 0 p)) (x2 (ix3 0 0 p)) p q := by
  unfold k1_pay1
  simp only [multiReduction]
  simp only [add_blk, addf_apply, mulf_apply, subf_apply, divf_apply, broadcast_apply, rsqrt_apply,
    bcast_col, bcast_row, cast_col, cast_row, plane_sum, drop_blk]
  rw [tr_row, tr_row, drop_row, drop_row]
  rw [plane_sum, plane_sum]
  simp only [drop_blk, mulf_apply, subf_apply, divf_apply, bcast_col, cast_col, broadcast_apply]
  rw [plane_sum]
  simp only [drop_blk]
  unfold planeNorm prstd pvar pmean
  rfl

end Cert.KernelIdeal.NormBody

end
-- ==== Proof.Region1.lean ====
/-
  What the normalising region leaves in the result array.

  Grid point (n, b) of the 16 × 2 grid loads block [n, 32b .. 32b+31, all, all] of the array and row [n, 0, all] of each
  conditioning array, and writes the same block of the result. A plane of the block is a plane of the array, so what the
  point writes is that block of the array normalised plane by plane under the rows' affine map; the 32 blocks tile the
  result array.
-/
import proofs.«167544_g7868380086984_feedfinal_290_5_alg».proof.Proof.Gen.KernelIdeal.Frame
import proofs.«167544_g7868380086984_feedfinal_290_5_alg».proof.Proof.NormBody
import Idealize.ShloMosaic.Lib.Pipeline.Value

set_option maxRecDepth 16384

noncomputable section

namespace Cert.KernelIdeal.RegionValues

open Cert.KernelIdeal Cert.KernelIdeal.Gen Cert.KernelIdeal.NormBody Cert.Spade
open Idealize.ShloMosaic Idealize.ShloMosaic.TcCoe Idealize.SL.Sem Idealize.ShloMosaic.ValueIdx
open Idealize.ShloMosaic.Pipeline (Dat Cfg Window)

theorem zeros3' : (![0, 0, 0] : Fin 3 → Nat) = fun _ => 0 := funext fun a => by fin_cases a <;> rfl
theorem zeros4 : (![0, 0, 0, 0] : Fin 4 → Nat) = fun _ => 0 := funext fun a => by fin_cases a <;> rfl

/-- A block holding planes 32b .. 32b+31 of sample n of an array, with that sample's rows: the body's store at
    (0, c, p, q) is the array's normalised entry at (n, 32b + c, p, q). -/
theorem block_entry (A : X4.Idx → EReal) (G B : R3.Idx → EReal)
    (X0 : Vec Ideal S1x32x256x256 .f32) (X1 X2 : Vec Ideal S1x1x256 .f32) (n : Fin 16) (b : Nat) (hb : b ≤ 1)
    (hX0 : ∀ (c : Fin 32) (p q : Fin 256), X0 (ix4 0 c p q) = A (ix4 n ⟨b * 32 + c.val, by have := c.isLt; omega⟩ p q))
    (hX1 : ∀ p : Fin 256, X1 (ix3 0 0 p) = G (ix3 n 0 p)) (hX2 : ∀ p : Fin 256, X2 (ix3 0 0 p) = B (ix3 n 0 p))
    (c : Fin 32) (p q : Fin 256) :
    k1_pay1 X0 X1 X2 (ix4 0 c p q) = normAffine A G B (ix4 n ⟨b * 32 + c.val, by have := c.isLt; omega⟩ p q) := by
  rw [body_at]
  unfold normAffine
  simp only [hX0, hX1, hX2]

variable (V : (c : Dev nD) → (b : Ref sig .tc) → Buf (Elt Ideal) ((c : Thread nD τ).loc b))

/-- The printed index maps over the 32 points: the array's and the result's blocks move together, the rows follow the
    sample, and the trailing block indices stay 0. -/
theorem idx_facts1 : ∀ t : Fin cfg1.N,
    win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_3.index t (2 : Fin 4) = 0 ∧ win1_3.index t (3 : Fin 4) = 0
    ∧ win1_1.index t (0 : Fin 3) = win1_3.index t (0 : Fin 4) ∧ win1_1.index t (1 : Fin 3) = 0 ∧ win1_1.index t (2 : Fin 3) = 0
    ∧ win1_2.index t (0 : Fin 3) = win1_3.index t (0 : Fin 4) ∧ win1_2.index t (1 : Fin 3) = 0 ∧ win1_2.index t (2 : Fin 3) = 0
    ∧ win1_3.index t (0 : Fin 4) ≤ 15 ∧ win1_3.index t (1 : Fin 4) ≤ 1 :=
  (by decide +kernel : ∀ t : Fin grid1.N, _)

/-- WHAT POINT t WRITES BACK is its block of the array normalised under the rows. -/
theorem flushed3 (c : Dev nD) (t : Fin cfg1.N) :
    (dat1 V c).flushed 3 t = ((cfg1.win 3).blk t).view.read (Elt Ideal)
      (normAffine (V c main_arg0) (V c main_call0_v12_0) (V c main_call0_v12_1)) := by
  show (cfg1.win 3).cut (grid1.coords t) ((dat1 V c).after 3 t) = _
  rw [after1_3]
  unfold out1_3
  rw [View.canon_unit_zero zeros4]
  simp only [View.ld_unit_zero (S := S1x32x256x256) zeros4, View.ld_unit_zero (S := S1x1x256) zeros3']
  obtain ⟨e00, e01, e02, e03, e32, e33, e10, e11, e12, e20, e21, e22, b0, b1⟩ := idx_facts1 t
  funext j
  obtain ⟨a, cc, p, q, rfl⟩ : ∃ (a : Fin 1) (cc : Fin 32) (p q : Fin 256), j = ix4 a cc p q :=
    ⟨j 0, j 1, j 2, j 3, eq_ix4 j⟩
  obtain rfl : a = 0 := Fin.ext (by have := a.isLt; omega)
  show k1_pay1 (iblk1 V c 0 t) (iblk1 V c 1 t) (iblk1 V c 2 t) (ix4 0 cc p q)
    = normAffine (V c main_arg0) (V c main_call0_v12_0) (V c main_call0_v12_1) (((cfg1.win 3).blk t).view.emb (ix4 0 cc p q))
  refine (block_entry (V c main_arg0) (V c main_call0_v12_0) (V c main_call0_v12_1) (iblk1 V c 0 t) (iblk1 V c 1 t) (iblk1 V c 2 t)
    ⟨win1_3.index t (0 : Fin 4), by omega⟩ (win1_3.index t (1 : Fin 4)) b1 ?_ ?_ ?_ cc p q).trans ?_
  · intro c' p' q'
    show V c main_arg0 (((cfg1.win 0).blk t).view.emb (ix4 0 c' p' q')) = _
    refine congrArg _ (funext fun d => Fin.ext ?_)
    match d with
    | ⟨0, _⟩ => show win1_0.index t (0 : Fin 4) * 1 + 1 * 0 = win1_3.index t (0 : Fin 4); omega
    | ⟨1, _⟩ => show win1_0.index t (1 : Fin 4) * 32 + 1 * c'.val = win1_3.index t (1 : Fin 4) * 32 + c'.val; omega
    | ⟨2, _⟩ => show win1_0.index t (2 : Fin 4) * 256 + 1 * p'.val = p'.val; omega
    | ⟨3, _⟩ => show win1_0.index t (3 : Fin 4) * 256 + 1 * q'.val = q'.val; omega
  · intro p'
    show V c main_call0_v12_0 (((cfg1.win 1).blk t).view.emb (ix3 0 0 p')) = _
    refine congrArg _ (funext fun d => Fin.ext ?_)
    match d with
    | ⟨0, _⟩ => show win1_1.index t (0 : Fin 3) * 1 + 1 * 0 = win1_3.index t (0 : Fin 4); omega
    | ⟨1, _⟩ => show win1_1.index t (1 : Fin 3) * 1 + 1 * 0 = 0; omega
    | ⟨2, _⟩ => show win1_1.index t (2 : Fin 3) * 256 + 1 * p'.val = p'.val; omega
  · intro p'
    show V c main_call0_v12_1 (((cfg1.win 2).blk t).view.emb (ix3 0 0 p')) = _
    refine congrArg _ (funext fun d => Fin.ext ?_)
    match d with
    | ⟨0, _⟩ => show win1_2.index t (0 : Fin 3) * 1 + 1 * 0 = win1_3.index t (0 : Fin 4); omega
    | ⟨1, _⟩ => show win1_2.index t (1 : Fin 3) * 1 + 1 * 0 = 0; omega
    | ⟨2, _⟩ => show win1_2.index t (2 : Fin 3) * 256 + 1 * p'.val = p'.val; omega
  · refine congrArg _ (funext fun d => Fin.ext ?_)
    match d with
    | ⟨0, _⟩ => show win1_3.index t (0 : Fin 4) = win1_3.index t (0 : Fin 4) * 1 + 1 * 0; omega
    | ⟨1, _⟩ => show win1_3.index t (1 : Fin 4) * 32 + cc.val = win1_3.index t (1 : Fin 4) * 32 + 1 * cc.val; omega
    | ⟨2, _⟩ => show p.val = win1_3.index t (2 : Fin 4) * 256 + 1 * p.val; omega
    | ⟨3, _⟩ => show q.val = win1_3.index t (3 : Fin 4) * 256 + 1 * q.val; omega

/-! ## The blocks tile the result array -/

/-- An index of the result array is in point t's block iff each coordinate is in the block's range on its axis. -/
theorem mem_blk3 (t : Fin cfg1.N) (i : S16x64x256x256.Idx) :
    i ∈ ((cfg1.win 3).blk t).view.set ↔ ∀ a : Fin 4, win1_3.index t a * S1x32x256x256.size a ≤ (i a).val
      ∧ (i a).val < win1_3.index t a * S1x32x256x256.size a + S1x32x256x256.size a := by
  show i ∈ ((View.whole main_v0).slice (win1_3.rect t)).set ↔ _
  rw [View.set_slice_whole, Rect.mem_set_unit]
  exact Iff.rfl

/-- Every block (n, b) of the result array is some point's. -/
theorem idx_onto1 : ∀ (q0 : Fin 16) (q1 : Fin 2), ∃ t : Fin cfg1.N, win1_3.index t = ![q0.val, q1.val, 0, 0] :=
  (by decide +kernel : ∀ (q0 : Fin 16) (q1 : Fin 2), ∃ t : Fin grid1.N, win1_3.index t = ![q0.val, q1.val, 0, 0])

/-- Every index of the result array is in the block of the point of its sample and its group of 32 planes. -/
theorem cover3 (i : S16x64x256x256.Idx) :
    ∃ t : Fin cfg1.N, (cfg1.win 3).flush t = true ∧ i ∈ ((cfg1.win 3).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := idx_onto1 ⟨(i 0).val, hi0⟩ ⟨(i 1).val / 32, by omega⟩
  have q0 : win1_3.index t (0 : Fin 4) = (i 0).val := congrFun ht 0
  have q1 : win1_3.index t (1 : Fin 4) = (i 1).val / 32 := congrFun ht 1
  have q2 : win1_3.index t (2 : Fin 4) = 0 := congrFun ht 2
  have q3 : win1_3.index t (3 : Fin 4) = 0 := congrFun ht 3
  refine ⟨t, flush1_3 t, ?_⟩
  rw [mem_blk3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 32 ≤ (i 1).val ∧ (i 1).val < win1_3.index t (1 : Fin 4) * 32 + 32; omega
  | ⟨2, _⟩ => show win1_3.index t (2 : Fin 4) * 256 ≤ (i 2).val ∧ (i 2).val < win1_3.index t (2 : Fin 4) * 256 + 256; omega
  | ⟨3, _⟩ => show win1_3.index t (3 : Fin 4) * 256 ≤ (i 3).val ∧ (i 3).val < win1_3.index t (3 : Fin 4) * 256 + 256; omega

/-- THE RESULT ARRAY after the region: the array it found, normalised plane by plane under the rows it found. -/
theorem norm_array (c : Dev nD) : (dat1 V c).arrAt 3 cfg1.N =
    normAffine (V c main_arg0) (V c main_call0_v12_0) (V c main_call0_v12_1) :=
  (dat1 V c).arrAt_eq_of_cover 3 _ (fun t _ => flushed3 V c t) cover3

end Cert.KernelIdeal.RegionValues

end
-- ==== Proof.Entry.lean ====
/-
  The arrays the first region finds.

  Before the first region the program only recasts each of the twelve bias vectors [256] as a row [1, 256], each into a
  buffer of its own. So at the region's entry every argument array still holds what it was launched with, and each
  row buffer holds its bias vector recast.
-/
import proofs.«167544_g7868380086984_feedfinal_290_5_alg».proof.Proof.Gen.KernelIdeal.Frame
import Idealize.ShloMosaic.Lib.StableHlo.Run

set_option maxRecDepth 16384

noncomputable section

namespace Cert.KernelIdeal.RegionValues

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The bias rows -/

theorem entry_row0 (c : Dev nD) : V1 m ρ c main_call0_v0 = shapeCast S1x256 (m ((c : Thread nD τ).loc main_arg3)) shapeCasts_S256_S1x256 := by
  show StableHlo.after hostOps0 (W0 m ρ c) (Proc.devRef .tc main_call0_v0) = _
  after_results
  rfl
theorem entry_row1 (c : Dev nD) : V1 m ρ c main_call0_v1 = shapeCast S1x256 (m ((c : Thread nD τ).loc main_arg5)) shapeCasts_S256_S1x256 := by
  show StableHlo.after hostOps0 (W0 m ρ c) (Proc.devRef .tc main_call0_v1) = _
  after_results
  rfl
theorem entry_row2 (c : Dev nD) : V1 m ρ c main_call0_v2 = shapeCast S1x256 (m ((c : Thread nD τ).loc main_arg7)) shapeCasts_S256_S1x256 := by
  show StableHlo.after hostOps0 (W0 m ρ c) (Proc.devRef .tc main_call0_v2) = _
  after_results
  rfl
theorem entry_row3 (c : Dev nD) : V1 m ρ c main_call0_v3 = shapeCast S1x256 (m ((c : Thread nD τ).loc main_arg9)) shapeCasts_S256_S1x256 := by
  show StableHlo.after hostOps0 (W0 m ρ c) (Proc.devRef .tc main_call0_v3) = _
  after_results
  rfl
theorem entry_row4 (c : Dev nD) : V1 m ρ c main_call0_v4 = shapeCast S1x256 (m ((c : Thread nD τ).loc main_arg11)) shapeCasts_S256_S1x256 := by
  show StableHlo.after hostOps0 (W0 m ρ c) (Proc.devRef .tc main_call0_v4) = _
  after_results
  rfl
theorem entry_row5 (c : Dev nD) : V1 m ρ c main_call0_v5 = shapeCast S1x256 (m ((c : Thread nD τ).loc main_arg13)) shapeCasts_S256_S1x256 := by
  show StableHlo.after hostOps0 (W0 m ρ c) (Proc.devRef .tc main_call0_v5) = _
  after_results
  rfl
theorem entry_row6 (c : Dev nD) : V1 m ρ c main_call0_v6 = shapeCast S1x256 (m ((c : Thread nD τ).loc main_arg15)) shapeCasts_S256_S1x256 := by
  show StableHlo.after hostOps0 (W0 m ρ c) (Proc.devRef .tc main_call0_v6) = _
  after_results
  rfl
theorem entry_row7 (c : Dev nD) : V1 m ρ c main_call0_v7 = shapeCast S1x256 (m ((c : Thread nD τ).loc main_arg17)) shapeCasts_S256_S1x256 := by
  show StableHlo.after hostOps0 (W0 m ρ c) (Proc.devRef .tc main_call0_v7) = _
  after_results
  rfl
theorem entry_row8 (c : Dev nD) : V1 m ρ c main_call0_v8 = shapeCast S1x256 (m ((c : Thread nD τ).loc main_arg19)) shapeCasts_S256_S1x256 := by
  show StableHlo.after hostOps0 (W0 m ρ c) (Proc.devRef .tc main_call0_v8) = _
  after_results
  rfl
theorem entry_row9 (c : Dev nD) : V1 m ρ c main_call0_v9 = shapeCast S1x256 (m ((c : Thread nD τ).loc main_arg21)) shapeCasts_S256_S1x256 := by
  show StableHlo.after hostOps0 (W0 m ρ c) (Proc.devRef .tc main_call0_v9) = _
  after_results
  rfl
theorem entry_row10 (c : Dev nD) : V1 m ρ c main_call0_v10 = shapeCast S1x256 (m ((c : Thread nD τ).loc main_arg23)) shapeCasts_S256_S1x256 := by
  show StableHlo.after hostOps0 (W0 m ρ c) (Proc.devRef .tc main_call0_v10) = _
  after_results
  rfl
theorem entry_row11 (c : Dev nD) : V1 m ρ c main_call0_v11 = shapeCast S1x256 (m ((c : Thread nD τ).loc main_arg25)) shapeCasts_S256_S1x256 := by
  show StableHlo.after hostOps0 (W0 m ρ c) (Proc.devRef .tc main_call0_v11) = _
  after_results
  rfl

/-! ## The arguments the regions read -/

theorem entry_arg0 (c : Dev nD) : V1 m ρ c main_arg0 = m ((c : Thread nD τ).loc main_arg0) := by
  show StableHlo.after hostOps0 (W0 m ρ c) (Proc.devRef .tc main_arg0) = _
  after_results
theorem entry_arg1 (c : Dev nD) : V1 m ρ c main_arg1 = m ((c : Thread nD τ).loc main_arg1) := by
  show StableHlo.after hostOps0 (W0 m ρ c) (Proc.devRef .tc main_arg1) = _
  after_results
theorem entry_arg2 (c : Dev nD) : V1 m ρ c main_arg2 = m ((c : Thread nD τ).loc main_arg2) := by
  show StableHlo.after hostOps0 (W0 m ρ c) (Proc.devRef .tc main_arg2) = _
  after_results
theorem entry_arg4 (c : Dev nD) : V1 m ρ c main_arg4 = m ((c : Thread nD τ).loc main_arg4) := by
  show StableHlo.after hostOps0 (W0 m ρ c) (Proc.devRef .tc main_arg4) = _
  after_results
theorem entry_arg6 (c : Dev nD) : V1 m ρ c main_arg6 = m ((c : Thread nD τ).loc main_arg6) := by
  show StableHlo.after hostOps0 (W0 m ρ c) (Proc.devRef .tc main_arg6) = _
  after_results
theorem entry_arg8 (c : Dev nD) : V1 m ρ c main_arg8 = m ((c : Thread nD τ).loc main_arg8) := by
  show StableHlo.after hostOps0 (W0 m ρ c) (Proc.devRef .tc main_arg8) = _
  after_results
theorem entry_arg10 (c : Dev nD) : V1 m ρ c main_arg10 = m ((c : Thread nD τ).loc main_arg10) := by
  show StableHlo.after hostOps0 (W0 m ρ c) (Proc.devRef .tc main_arg10) = _
  after_results
theorem entry_arg12 (c : Dev nD) : V1 m ρ c main_arg12 = m ((c : Thread nD τ).loc main_arg12) := by
  show StableHlo.after hostOps0 (W0 m ρ c) (Proc.devRef .tc main_arg12) = _
  after_results
theorem entry_arg14 (c : Dev nD) : V1 m ρ c main_arg14 = m ((c : Thread nD τ).loc main_arg14) := by
  show StableHlo.after hostOps0 (W0 m ρ c) (Proc.devRef .tc main_arg14) = _
  after_results
theorem entry_arg16 (c : Dev nD) : V1 m ρ c main_arg16 = m ((c : Thread nD τ).loc main_arg16) := by
  show StableHlo.after hostOps0 (W0 m ρ c) (Proc.devRef .tc main_arg16) = _
  after_results
theorem entry_arg18 (c : Dev nD) : V1 m ρ c main_arg18 = m ((c : Thread nD τ).loc main_arg18) := by
  show StableHlo.after hostOps0 (W0 m ρ c) (Proc.devRef .tc main_arg18) = _
  after_results
theorem entry_arg20 (c : Dev nD) : V1 m ρ c main_arg20 = m ((c : Thread nD τ).loc main_arg20) := by
  show StableHlo.after hostOps0 (W0 m ρ c) (Proc.devRef .tc main_arg20) = _
  after_results
theorem entry_arg22 (c : Dev nD) : V1 m ρ c main_arg22 = m ((c : Thread nD τ).loc main_arg22) := by
  show StableHlo.after hostOps0 (W0 m ρ c) (Proc.devRef .tc main_arg22) = _
  after_results
theorem entry_arg24 (c : Dev nD) : V1 m ρ c main_arg24 = m ((c : Thread nD τ).loc main_arg24) := by
  show StableHlo.after hostOps0 (W0 m ρ c) (Proc.devRef .tc main_arg24) = _
  after_results

end Cert.KernelIdeal.RegionValues

end
-- ==== Proof.Rows.lean ====
/-
  The conditioning network's two outputs, as functions of the weight and bias arrays.

  A layer is `lin a W b = a·W + b` with the bias vector [256] recast as a row and broadcast over the 16 samples, and
  `relu v = max(v, 0)`. Four layers `relu ∘ lin` are shared by both branches; each branch then applies three more such
  layers and a last `lin` without the maximum. Each output [16, 256] is recast [16, 1, 256].
-/
import proofs.«167544_g7868380086984_feedfinal_290_5_alg».proof.Proof.Gen.KernelIdeal.Skeleton
import Idealize.ShloMosaic.PureOps.Ideal

noncomputable section

namespace Cert.KernelIdeal.Rows

open Cert.KernelIdeal Cert.KernelIdeal.Gen Idealize.ShloMosaic

/-- A bias vector [256] recast as a row [1, 256]. -/
abbrev row (b : Vec Ideal S256 .f32) : Vec Ideal S1x256 .f32 := shapeCast S1x256 b shapeCasts_S256_S1x256

/-- One layer without its maximum: the product with the weights, accumulated from zero, plus the bias row broadcast. -/
def lin {sl sr : Shape} (d : DotDims sl sr S16x256) (a : FVec Ideal sl .f32) (w : FVec Ideal sr .f32) (b : Vec Ideal S256 .f32) :
    FVec Ideal S16x256 .f32 :=
  addf (matmul d none a w (constant S16x256 .f32 0x00000000#32))
    (broadcastTo S16x256 (shapeCast S1x256 (row b) shapeCasts_S1x256_S1x256) broadcasts_S1x256_S16x256)

/-- The entrywise maximum with zero. -/
def relu (v : FVec Ideal S16x256 .f32) : FVec Ideal S16x256 .f32 :=
  maximumf v (broadcast S16x256 (Scalar.ofBits .f32 0x00000000#32))

local notation "d11" => dot_S16x11_S11x256_S16x256_1_0_0_1_n_n
local notation "d256" => dot_S16x256_S256x256_S16x256_1_0_0_1_n_n

/-- The four shared layers. -/
def trunkA (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) : FVec Ideal S16x256 .f32 :=
  relu (lin d256 (relu (lin d256 (relu (lin d256 (relu (lin d11 x1 x2 x3)) x4 x5)) x6 x7)) x8 x9)

/-- A branch: three layers with the maximum, then one without. -/
def branch (h : FVec Ideal S16x256 .f32) (w0 : Vec Ideal S256x256 .f32) (b0 : Vec Ideal S256 .f32) (w1 : Vec Ideal S256x256 .f32) (b1 : Vec Ideal S256 .f32)
    (w2 : Vec Ideal S256x256 .f32) (b2 : Vec Ideal S256 .f32) (w3 : Vec Ideal S256x256 .f32) (b3 : Vec Ideal S256 .f32) : FVec Ideal S16x256 .f32 :=
  lin d256 (relu (lin d256 (relu (lin d256 (relu (lin d256 h w0 b0)) w1 b1)) w2 b2)) w3 b3

/-- The scale output [16, 256]. -/
def scale16 (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256x256 .f32) (x15 : Vec Ideal S256 .f32) (x16 : Vec Ideal S256x256 .f32) (x17 : Vec Ideal S256 .f32) : FVec Ideal S16x256 .f32 :=
  branch (trunkA x1 x2 x3 x4 x5 x6 x7 x8 x9) x10 x11 x12 x13 x14 x15 x16 x17

/-- The shift output [16, 256]. -/
def shift16 (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x18 : Vec Ideal S256x256 .f32) (x19 : Vec Ideal S256 .f32) (x20 : Vec Ideal S256x256 .f32) (x21 : Vec Ideal S256 .f32) (x22 : Vec Ideal S256x256 .f32) (x23 : Vec Ideal S256 .f32) (x24 : Vec Ideal S256x256 .f32) (x25 : Vec Ideal S256 .f32) : FVec Ideal S16x256 .f32 :=
  branch (trunkA x1 x2 x3 x4 x5 x6 x7 x8 x9) x18 x19 x20 x21 x22 x23 x24 x25

/-- The scale rows [16, 1, 256]. -/
def scaleA (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256x256 .f32) (x15 : Vec Ideal S256 .f32) (x16 : Vec Ideal S256x256 .f32) (x17 : Vec Ideal S256 .f32) : Vec Ideal S16x1x256 .f32 :=
  shapeCast S16x1x256 (scale16 x1 x2 x3 x4 x5 x6 x7 x8 x9 x10 x11 x12 x13 x14 x15 x16 x17) shapeCasts_S16x256_S16x1x256

/-- The shift rows [16, 1, 256]. -/
def shiftA (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x18 : Vec Ideal S256x256 .f32) (x19 : Vec Ideal S256 .f32) (x20 : Vec Ideal S256x256 .f32) (x21 : Vec Ideal S256 .f32) (x22 : Vec Ideal S256x256 .f32) (x23 : Vec Ideal S256 .f32) (x24 : Vec Ideal S256x256 .f32) (x25 : Vec Ideal S256 .f32) : Vec Ideal S16x1x256 .f32 :=
  shapeCast S16x1x256 (shift16 x1 x2 x3 x4 x5 x6 x7 x8 x9 x18 x19 x20 x21 x22 x23 x24 x25) shapeCasts_S16x256_S16x1x256

/-- The first region's arithmetic is these compositions: the scale rows … -/
theorem scaleA_eq (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256x256 .f32) (x15 : Vec Ideal S256 .f32) (x16 : Vec Ideal S256x256 .f32) (x17 : Vec Ideal S256 .f32) :
    k0_pay1 (k0_pay4 (k0_pay3 x1 x2 (row x3) x4 (row x5) x6 (row x7) x8 (row x9)) x10 (row x11) x12 (row x13) x14 (row x15) x16 (row x17)) = scaleA x1 x2 x3 x4 x5 x6 x7 x8 x9 x10 x11 x12 x13 x14 x15 x16 x17 := rfl

/-- … and the shift rows. -/
theorem shiftA_eq (x1 : Vec Ideal S16x11 .f32) (x2 : Vec Ideal S11x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x18 : Vec Ideal S256x256 .f32) (x19 : Vec Ideal S256 .f32) (x20 : Vec Ideal S256x256 .f32) (x21 : Vec Ideal S256 .f32) (x22 : Vec Ideal S256x256 .f32) (x23 : Vec Ideal S256 .f32) (x24 : Vec Ideal S256x256 .f32) (x25 : Vec Ideal S256 .f32) :
    k0_pay2 (k0_pay5 (k0_pay3 x1 x2 (row x3) x4 (row x5) x6 (row x7) x8 (row x9)) x18) (row x19) x20 (row x21) x22 (row x23) x24 (row x25) = shiftA x1 x2 x3 x4 x5 x6 x7 x8 x9 x18 x19 x20 x21 x22 x23 x24 x25 := rfl

end Cert.KernelIdeal.Rows

end
-- ==== Proof.KernelValue.lean ====
/-
  The idealized kernel's result, as one function of the launched arrays.

  The second region finds the array as launched and the two conditioning arrays as the first region left them; the first
  region finds every weight matrix as launched and every bias as its launched vector recast as a row. So the result
  array ends at the launched array normalised plane by plane, under the affine map whose scale and shift rows are the
  conditioning network's two outputs on the launched weights and biases.
-/
import proofs.«167544_g7868380086984_feedfinal_290_5_alg».proof.Proof.Launch
import proofs.«167544_g7868380086984_feedfinal_290_5_alg».proof.Proof.Region0
import proofs.«167544_g7868380086984_feedfinal_290_5_alg».proof.Proof.Region1
import proofs.«167544_g7868380086984_feedfinal_290_5_alg».proof.Proof.Entry
import proofs.«167544_g7868380086984_feedfinal_290_5_alg».proof.Proof.Rows

set_option maxRecDepth 16384

noncomputable section

namespace Cert.KernelIdeal.RegionValues

open Cert.KernelIdeal Cert.KernelIdeal.Gen Cert.Spade
open Idealize.ShloMosaic Idealize.ShloMosaic.TcCoe Idealize.SL.Sem

variable (m : (ℓ : Loc nD τ sig) → Buf (Elt Ideal) ℓ) (ρ : Dev nD → PrngReg)

/-- The second region finds the array as launched. -/
theorem found_array (c : Dev nD) : V2 m ρ c main_arg0 = m ((c : Thread nD τ).loc main_arg0) :=
  (W2_of_ne m ρ c main_arg0 (by decide)).trans (entry_arg0 m ρ c)

/-- The second region finds the scale rows the first region left. -/
theorem found_scale (c : Dev nD) : V2 m ρ c main_call0_v12_0 = (Rows.scaleA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  rw [show V2 m ρ c main_call0_v12_0 = (dat0 (V1 m ρ) c).arrAt 25 cfg0.N from W2_arr m ρ c 25, scale_rows (V1 m ρ) c]
  rw [entry_arg1, entry_arg2, entry_arg4, entry_arg6, entry_arg8, entry_arg10, entry_arg12, entry_arg14, entry_arg16,
    entry_row0, entry_row1, entry_row2, entry_row3, entry_row4, entry_row5, entry_row6, entry_row7]
  exact Rows.scaleA_eq ..

/-- The second region finds the shift rows the first region left. -/
theorem found_shift (c : Dev nD) : V2 m ρ c main_call0_v12_1 = (Rows.shiftA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  rw [show V2 m ρ c main_call0_v12_1 = (dat0 (V1 m ρ) c).arrAt 26 cfg0.N from W2_arr m ρ c 26, shift_rows (V1 m ρ) c]
  rw [entry_arg1, entry_arg2, entry_arg4, entry_arg6, entry_arg8, entry_arg18, entry_arg20, entry_arg22, entry_arg24,
    entry_row0, entry_row1, entry_row2, entry_row3, entry_row8, entry_row9, entry_row10, entry_row11]
  exact Rows.shiftA_eq ..

/-- THE RESULT ARRAY after the run. -/
theorem result_eq (c : Dev nD) :
    W3 m ρ c (Proc.devRef .tc main_v0) = normAffine (m ((c : Thread nD τ).loc main_arg0)) ((Rows.scaleA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) ((Rows.shiftA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)))) := by
  rw [show W3 m ρ c (Proc.devRef .tc main_v0) = (dat1 (V2 m ρ) c).arrAt 3 cfg1.N from W3_arr m ρ c 3, norm_array (V2 m ρ) c,
    found_array, found_scale, found_shift]

/-- The run, read: every weakly fair execution terminates with the result array at that function of the launched
    arrays and every argument as launched. -/
theorem run_value : θ_run defs (onTc (τ := τ) (main (F := Ideal))) ⟨m, fun _ => 0, ρ⟩ (fun r => ∀ c : Dev nD,
      r.2.mem ((c.tc : Thread nD τ).loc main_v0) = normAffine (m ((c : Thread nD τ).loc main_arg0)) ((Rows.scaleA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) ((Rows.shiftA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (result_eq m ρ c), (h c).2⟩) (RunValue.run_out m ρ)

end Cert.KernelIdeal.RegionValues

end
-- ==== Proof.RefNorm.lean ====
/-
  The reference's result at an entry, with the conditioning network's two outputs left as they are.

  The reference sums each plane of the array on the host (a sum over the two trailing axes from the initial value 0:
  the double sum over the plane), divides by 65536 for the mean, repeats this for the squared deviations, adds ε and
  takes the reciprocal square root; every intermediate is broadcast back over the plane. So its entry (n, c, p, q) is
  the plane's normalised entry, times one plus the first output at (n, p), plus the second output at (n, p).
-/
import proofs.«167544_g7868380086984_feedfinal_290_5_alg».proof.Proof.Gen.ReferenceIdeal.Run
import proofs.«167544_g7868380086984_feedfinal_290_5_alg».proof.Proof.Gen.ReferenceIdeal.Read
import proofs.«167544_g7868380086984_feedfinal_290_5_alg».proof.Proof.Spec

noncomputable section

open scoped BigOperators

namespace Cert.Spade.Ref

open Cert.ReferenceIdeal Cert.ReferenceIdeal.Read Cert.Spade
open Idealize.ShloMosaic Idealize.ShloMosaic.ValueIdx

/-- The host's sum over the two trailing axes, at (n, c): the initial value plus the double sum over plane (n, c). -/
theorem plane_sum (x : FVec Ideal S16x64x256x256 .f32) (init : S_.Idx → Ideal .f32) (h : S16x64x256x256.ReducesTo [2, 3] S16x64) (hu : 0 < S_.numel)
    (k : S16x64.Idx) :
    Host.reduceAdd (F := Ideal) x init h hu k = init (Shape.Idx.first hu) + ∑ p : Fin 256, ∑ q : Fin 256, x (ix4 (k 0) (k 1) p q) := by
  show init (Shape.Idx.first hu) + ∑ i ∈ Finset.univ.filter (fun i => h.drop i = k), x i
    = init (Shape.Idx.first hu) + ∑ p : Fin 256, ∑ q : Fin 256, x (ix4 (k 0) (k 1) p q)
  congr 1
  refine sum_plane4_of_mem (n0 := 16) (n1 := 64) (n2 := 256) (n3 := 256) _ (k 0) (k 1) (fun i => ?_) x
  have hv0 : (h.drop i 0 : Nat) = (i 0).val := Shape.ReducesTo.drop_apply_val_of_eq h i 0 0
  have hv1 : (h.drop i 1 : Nat) = (i 1).val := Shape.ReducesTo.drop_apply_val_of_eq h i 1 1
  constructor
  · intro hm
    have e : h.drop i = k := (Finset.mem_filter.mp hm).2
    rw [e] at hv0 hv1
    exact ⟨Fin.ext hv0.symm, Fin.ext hv1.symm⟩
  · rintro ⟨e0, e1⟩
    refine Finset.mem_filter.mpr ⟨Finset.mem_univ _, ?_⟩
    funext b
    match b with
    | ⟨0, _⟩ => exact Fin.ext (hv0.trans (congrArg Fin.val e0))
    | ⟨1, _⟩ => exact Fin.ext (hv1.trans (congrArg Fin.val e1))

/-- The reference's mean, at any index of its [16, 64, 1, 1] array: the mean of that index's plane. -/
theorem ref_mean (x0 : FVec Ideal S16x64x256x256 .f32) (k : S16x64x1x1.Idx) :
    val_main_v3 (F := Ideal) x0 k = pmean (fun p q => x0 (ix4 (k 0) (k 1) p q)) := by
  rw [val_main_v3_apply, val_main_v1_apply, val_main_v2_apply, val_main_cst_0_apply]
  unfold val_main_v0
  rw [plane_sum, val_main_cst_apply]
  show Ideal.div (Ideal.ofBits .f32 0x00000000#32 + _) _ = _
  rw [Ideal.ofBits_zero_f32, zero_add]
  rfl

/-- An entry less its plane's mean (the reference computes it twice). -/
theorem ref_cen5 (x0 : FVec Ideal S16x64x256x256 .f32) (i : S16x64x256x256.Idx) :
    val_main_v5 (F := Ideal) x0 i = x0 i - pmean (fun p q => x0 (ix4 (i 0) (i 1) p q)) := by
  rw [val_main_v5_apply, val_main_v4_apply, ref_mean]
  rfl
theorem ref_cen12 (x0 : FVec Ideal S16x64x256x256 .f32) (i : S16x64x256x256.Idx) :
    val_main_v12 (F := Ideal) x0 i = x0 i - pmean (fun p q => x0 (ix4 (i 0) (i 1) p q)) := by
  rw [val_main_v12_apply, val_main_v11_apply, ref_mean]
  rfl

/-- The reference's variance, at any index of its [16, 64, 1, 1] array: the variance of that index's plane. -/
theorem ref_var (x0 : FVec Ideal S16x64x256x256 .f32) (k : S16x64x1x1.Idx) :
    val_main_v10 (F := Ideal) x0 k = pvar (fun p q => x0 (ix4 (k 0) (k 1) p q)) := by
  rw [val_main_v10_apply, val_main_v8_apply, val_main_v9_apply, val_main_cst_2_apply]
  unfold val_main_v7
  rw [plane_sum, val_main_cst_1_apply]
  simp only [val_main_v6_apply, ref_cen5]
  show Ideal.div (Ideal.ofBits .f32 0x00000000#32 + _) _ = _
  rw [Ideal.ofBits_zero_f32, zero_add]
  rfl

/-- The reference's reciprocal deviation likewise. -/
theorem ref_rstd (x0 : FVec Ideal S16x64x256x256 .f32) (k : S16x64x1x1.Idx) :
    val_main_v15 (F := Ideal) x0 k = prstd (fun p q => x0 (ix4 (k 0) (k 1) p q)) := by
  rw [val_main_v15_apply, val_main_v14_apply, ref_var, val_main_v13_apply, val_main_cst_3_apply]
  rfl

/-- The normalised entry. -/
theorem ref_norm (x0 : FVec Ideal S16x64x256x256 .f32) (i : S16x64x256x256.Idx) :
    val_main_v17 (F := Ideal) x0 i
      = (x0 i - pmean (fun p q => x0 (ix4 (i 0) (i 1) p q))) * prstd (fun p q => x0 (ix4 (i 0) (i 1) p q)) := by
  rw [val_main_v17_apply, ref_cen12, val_main_v16_apply, ref_rstd]
  rfl

/-- THE REFERENCE'S RESULT at an entry: the plane's normalised entry under the affine map of the two network outputs
    at (sample, row). -/
theorem ref_at (x0 : FVec Ideal S16x64x256x256 .f32) (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) (x14 : FVec Ideal S256x256 .f32) (x15 : FVec Ideal S256 .f32) (x16 : FVec Ideal S256x256 .f32) (x17 : FVec Ideal S256 .f32) (x18 : FVec Ideal S256x256 .f32) (x19 : FVec Ideal S256 .f32) (x20 : FVec Ideal S256x256 .f32) (x21 : FVec Ideal S256 .f32) (x22 : FVec Ideal S256x256 .f32) (x23 : FVec Ideal S256 .f32) (x24 : FVec Ideal S256x256 .f32) (x25 : FVec Ideal S256 .f32) (i : S16x64x256x256.Idx) :
    val_main_v83 (F := Ideal) x0 x1 x2 x3 x4 x5 x6 x7 x8 x9 x10 x11 x12 x13 x14 x15 x16 x17 x18 x19 x20 x21 x22 x23 x24 x25 i
      = planeNorm (fun p q => x0 (ix4 (i 0) (i 1) p q))
          (val_main_v56 (F := Ideal) x1 x2 x3 x4 x5 x6 x7 x8 x9 x10 x11 x12 x13 x14 x15 x16 x17 (ix2 (i 0) (i 2)))
          (val_main_v75 (F := Ideal) x1 x2 x3 x4 x5 x6 x7 x8 x9 x18 x19 x20 x21 x22 x23 x24 x25 (ix2 (i 0) (i 2))) (i 2) (i 3) := by
  rw [val_main_v83_apply, val_main_v81_apply, val_main_v82_apply, val_main_v80_apply, val_main_v79_apply, val_main_v78_apply,
    val_main_v76_apply, val_main_v77_apply, val_main_cst_4_apply, ref_norm]
  have h76 : idx_main_v76 (idx_main_v80 i) = ix2 (i 0) (i 2) := funext fun a => by
    match a with
    | ⟨0, _⟩ => rfl
    | ⟨1, _⟩ => rfl
  have h77 : idx_main_v77 (idx_main_v82 i) = ix2 (i 0) (i 2) := funext fun a => by
    match a with
    | ⟨0, _⟩ => rfl
    | ⟨1, _⟩ => rfl
  have hi : x0 (ix4 (i 0) (i 1) (i 2) (i 3)) = x0 i := congrArg x0 (eq_ix4 i).symm
  rw [h76, h77]
  unfold planeNorm
  beta_reduce
  rw [hi]
  rfl

end Cert.Spade.Ref

end
-- ==== Proof.RefMlp.lean ====
/-
  The reference's conditioning network is the kernel's.

  Each of the reference's layers is the host's product of the previous stage with a weight matrix plus a bias vector
  broadcast to a row and then over the 16 samples; at the extended reals the host's product and a product accumulated
  from zero are the same sum over the contracted axis, and both ways of broadcasting the bias read it at the entry's
  column. Its maximum with a broadcast zero is the maximum with a splat zero. So the reference's two outputs are the
  compositions `scale16` and `shift16` of the same arrays.
-/
import proofs.«167544_g7868380086984_feedfinal_290_5_alg».proof.Proof.Gen.ReferenceIdeal.Read
import proofs.«167544_g7868380086984_feedfinal_290_5_alg».proof.Proof.Rows
import Idealize.ShloMosaic.PureOps.Ideal.Laws
import Idealize.ShloMosaic.Lib.Pipeline.Value
import Idealize.ShloMosaic.Lib.ValueIdx

noncomputable section

namespace Cert.Spade.RefMlp

open Cert.ReferenceIdeal Cert.ReferenceIdeal.Read Cert.KernelIdeal.Rows
open Idealize.ShloMosaic Idealize.ShloMosaic.ValueIdx

local notation "d11" => Cert.ReferenceIdeal.dot_S16x11_S11x256_S16x256_1_0_0_1_n_n
local notation "d256" => Cert.ReferenceIdeal.dot_S16x256_S256x256_S16x256_1_0_0_1_n_n

/-- The reference's layer — the host's product plus the bias vector broadcast first to a row, then over the samples —
    is `lin`: the two products are the same sum over the contracted axis, and both broadcasts read the bias at the
    entry's column. -/
theorem layer_eq {sl sr : Shape} (d : DotDims sl sr S16x256) (a : FVec Ideal sl .f32) (w : FVec Ideal sr .f32) (b : FVec Ideal S256 .f32)
    (h1 : S256.BroadcastsInDim S1x256 ![1]) (h2 : S1x256.BroadcastsInDim S16x256 ![0, 1]) :
    addf (Host.dotGeneral d none a w) (broadcastInDim S16x256 ![0, 1] h2 (broadcastInDim S1x256 ![1] h1 b)) = lin d a w b := by
  funext i
  unfold lin
  have hL : broadcastInDim S16x256 ![0, 1] h2 (broadcastInDim S1x256 ![1] h1 b) i = b (ix1 (i 1)) :=
    (broadcastInDim_apply _ h2 _ i (ix2 0 (i 1)) (fun a => match a with
      | ⟨0, _⟩ => by show (0 : Nat) = if (1 : Nat) = 1 then 0 else (i 0).val; rw [if_pos rfl]
      | ⟨1, _⟩ => by show (i 1).val = if (256 : Nat) = 1 then 0 else (i 1).val; rw [if_neg (by decide)])).trans
    (broadcastInDim_apply _ h1 b (ix2 0 (i 1)) (ix1 (i 1)) (fun a => match a with
      | ⟨0, _⟩ => by show (i 1).val = if (256 : Nat) = 1 then 0 else (i 1).val; rw [if_neg (by decide)]))
  have hR : ∀ (hs : S1x256.ShapeCasts S1x256) (hb : S1x256.Broadcasts S16x256),
      broadcastTo S16x256 (shapeCast S1x256 (row b) hs) hb i = b (ix1 (i 1)) := fun hs hb =>
    (broadcastTo_apply _ hb i (ix2 0 (i 1)) (fun a => match a with
      | ⟨0, _⟩ => by show (0 : Nat) = if (1 : Nat) = 1 then 0 else (i 0).val; rw [if_pos rfl]
      | ⟨1, _⟩ => by show (i 1).val = if (256 : Nat) = 1 then 0 else (i 1).val; rw [if_neg (by decide)])).trans
    ((congrFun (shapeCast_self _ hs) _).trans (shapeCast_apply b _ _ (ix1 (i 1)) (by
      rw [Shape.rowMajor_val_one, Shape.rowMajor_val_two]
      show (i 1).val = 0 * 256 + (i 1).val
      omega)))
  have hM : matmul d none a w (constant S16x256 .f32 0x00000000#32) i = Host.dotGeneral d none a w i := by
    rw [show matmul d none a w (constant S16x256 .f32 0x00000000#32) i = _ from Ideal.matmul_constant_zero_apply d none a w i]
    simp only [Host.dotGeneral]
    rw [Ideal.dotGeneral_apply]
  show Host.dotGeneral d none a w i + broadcastInDim S16x256 ![0, 1] h2 (broadcastInDim S1x256 ![1] h1 b) i
    = matmul d none a w (constant S16x256 .f32 0x00000000#32) i
      + broadcastTo S16x256 (shapeCast S1x256 (row b) _) _ i
  rw [hL, hR, hM]

/-- The reference's maximum with a zero broadcast from rank 0 is `relu`. -/
theorem relu_eq (v : FVec Ideal S16x256 .f32) (h : S_.BroadcastsInDim S16x256 ![]) :
    maximumf v (broadcastInDim S16x256 ![] h (constant S_ .f32 0x00000000#32)) = relu v := by
  funext i
  unfold relu
  show max (v i) (broadcastInDim S16x256 ![] h (constant S_ .f32 0x00000000#32) i) = max (v i) _
  rw [broadcastInDim_apply _ h _ i (fun a => a.elim0) (fun a => a.elim0)]
  rfl

/-! ## Layer by layer -/

theorem lin_v21 (x1 : FVec Ideal S16x11 .f32) (x2 : FVec Ideal S11x256 .f32) (x3 : FVec Ideal S256 .f32) :
    val_main_v21 (F := Ideal) x1 x2 x3 = lin d11 x1 x2 x3 := by
  unfold val_main_v21 val_main_v18 val_main_v20 val_main_v19
  exact layer_eq _ _ _ _ _ _
theorem relu_v22 (x1 : FVec Ideal S16x11 .f32) (x2 : FVec Ideal S11x256 .f32) (x3 : FVec Ideal S256 .f32) :
    val_main_v22 (F := Ideal) x1 x2 x3 = relu (val_main_v21 (F := Ideal) x1 x2 x3) := by
  unfold val_main_v22 val_main_call0_v0 val_main_call0_cst
  exact relu_eq _ _
theorem lin_v26 (x1 : FVec Ideal S16x11 .f32) (x2 : FVec Ideal S11x256 .f32) (x3 : FVec Ideal S256 .f32) (x4 : FVec Ideal S256x256 .f32) (x5 : FVec Ideal S256 .f32) :
    val_main_v26 (F := Ideal) x1 x2 x3 x4 x5 = lin d256 (val_main_v22 (F := Ideal) x1 x2 x3) x4 x5 := by
  unfold val_main_v26 val_main_v23 val_main_v25 val_main_v24
  exact layer_eq _ _ _ _ _ _
theorem relu_v27 (x1 : FVec Ideal S16x11 .f32) (x2 : FVec Ideal S11x256 .f32) (x3 : FVec Ideal S256 .f32) (x4 : FVec Ideal S256x256 .f32) (x5 : FVec Ideal S256 .f32) :
    val_main_v27 (F := Ideal) x1 x2 x3 x4 x5 = relu (val_main_v26 (F := Ideal) x1 x2 x3 x4 x5) := by
  unfold val_main_v27 val_main_call1_v0 val_main_call1_cst
  exact relu_eq _ _
theorem lin_v31 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) :
    val_main_v31 (F := Ideal) x1 x2 x3 x4 x5 x6 x7 = lin d256 (val_main_v27 (F := Ideal) x1 x2 x3 x4 x5) x6 x7 := by
  unfold val_main_v31 val_main_v28 val_main_v30 val_main_v29
  exact layer_eq _ _ _ _ _ _
theorem relu_v32 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) :
    val_main_v32 (F := Ideal) x1 x2 x3 x4 x5 x6 x7 = relu (val_main_v31 (F := Ideal) x1 x2 x3 x4 x5 x6 x7) := by
  unfold val_main_v32 val_main_call2_v0 val_main_call2_cst
  exact relu_eq _ _
theorem lin_v36 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) :
    val_main_v36 (F := Ideal) x1 x2 x3 x4 x5 x6 x7 x8 x9 = lin d256 (val_main_v32 (F := Ideal) x1 x2 x3 x4 x5 x6 x7) x8 x9 := by
  unfold val_main_v36 val_main_v33 val_main_v35 val_main_v34
  exact layer_eq _ _ _ _ _ _
theorem relu_v37 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) :
    val_main_v37 (F := Ideal) x1 x2 x3 x4 x5 x6 x7 x8 x9 = relu (val_main_v36 (F := Ideal) x1 x2 x3 x4 x5 x6 x7 x8 x9) := by
  unfold val_main_v37 val_main_call3_v0 val_main_call3_cst
  exact relu_eq _ _
theorem lin_v41 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) :
    val_main_v41 (F := Ideal) x1 x2 x3 x4 x5 x6 x7 x8 x9 x10 x11 = lin d256 (val_main_v37 (F := Ideal) x1 x2 x3 x4 x5 x6 x7 x8 x9) x10 x11 := by
  unfold val_main_v41 val_main_v38 val_main_v40 val_main_v39
  exact layer_eq _ _ _ _ _ _
theorem relu_v42 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) :
    val_main_v42 (F := Ideal) x1 x2 x3 x4 x5 x6 x7 x8 x9 x10 x11 = relu (val_main_v41 (F := Ideal) x1 x2 x3 x4 x5 x6 x7 x8 x9 x10 x11) := by
  unfold val_main_v42 val_main_call4_v0 val_main_call4_cst
  exact relu_eq _ _
theorem lin_v46 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) :
    val_main_v46 (F := Ideal) x1 x2 x3 x4 x5 x6 x7 x8 x9 x10 x11 x12 x13 = lin d256 (val_main_v42 (F := Ideal) x1 x2 x3 x4 x5 x6 x7 x8 x9 x10 x11) x12 x13 := by
  unfold val_main_v46 val_main_v43 val_main_v45 val_main_v44
  exact layer_eq _ _ _ _ _ _
theorem relu_v47 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) :
    val_main_v47 (F := Ideal) x1 x2 x3 x4 x5 x6 x7 x8 x9 x10 x11 x12 x13 = relu (val_main_v46 (F := Ideal) x1 x2 x3 x4 x5 x6 x7 x8 x9 x10 x11 x12 x13) := by
  unfold val_main_v47 val_main_call5_v0 val_main_call5_cst
  exact relu_eq _ _
theorem lin_v51 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) (x14 : FVec Ideal S256x256 .f32) (x15 : FVec Ideal S256 .f32) :
    val_main_v51 (F := Ideal) x1 x2 x3 x4 x5 x6 x7 x8 x9 x10 x11 x12 x13 x14 x15 = lin d256 (val_main_v47 (F := Ideal) x1 x2 x3 x4 x5 x6 x7 x8 x9 x10 x11 x12 x13) x14 x15 := by
  unfold val_main_v51 val_main_v48 val_main_v50 val_main_v49
  exact layer_eq _ _ _ _ _ _
theorem relu_v52 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) (x14 : FVec Ideal S256x256 .f32) (x15 : FVec Ideal S256 .f32) :
    val_main_v52 (F := Ideal) x1 x2 x3 x4 x5 x6 x7 x8 x9 x10 x11 x12 x13 x14 x15 = relu (val_main_v51 (F := Ideal) x1 x2 x3 x4 x5 x6 x7 x8 x9 x10 x11 x12 x13 x14 x15) := by
  unfold val_main_v52 val_main_call6_v0 val_main_call6_cst
  exact relu_eq _ _
theorem lin_v56 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) (x14 : FVec Ideal S256x256 .f32) (x15 : FVec Ideal S256 .f32) (x16 : FVec Ideal S256x256 .f32) (x17 : FVec Ideal S256 .f32) :
    val_main_v56 (F := Ideal) x1 x2 x3 x4 x5 x6 x7 x8 x9 x10 x11 x12 x13 x14 x15 x16 x17 = lin d256 (val_main_v52 (F := Ideal) x1 x2 x3 x4 x5 x6 x7 x8 x9 x10 x11 x12 x13 x14 x15) x16 x17 := by
  unfold val_main_v56 val_main_v53 val_main_v55 val_main_v54
  exact layer_eq _ _ _ _ _ _
theorem lin_v60 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) :
    val_main_v60 (F := Ideal) x1 x2 x3 x4 x5 x6 x7 x8 x9 x18 x19 = lin d256 (val_main_v37 (F := Ideal) x1 x2 x3 x4 x5 x6 x7 x8 x9) x18 x19 := by
  unfold val_main_v60 val_main_v57 val_main_v59 val_main_v58
  exact layer_eq _ _ _ _ _ _
theorem relu_v61 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) :
    val_main_v61 (F := Ideal) x1 x2 x3 x4 x5 x6 x7 x8 x9 x18 x19 = relu (val_main_v60 (F := Ideal) x1 x2 x3 x4 x5 x6 x7 x8 x9 x18 x19) := by
  unfold val_main_v61 val_main_call7_v0 val_main_call7_cst
  exact relu_eq _ _
theorem lin_v65 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) (x20 : FVec Ideal S256x256 .f32) (x21 : FVec Ideal S256 .f32) :
    val_main_v65 (F := Ideal) x1 x2 x3 x4 x5 x6 x7 x8 x9 x18 x19 x20 x21 = lin d256 (val_main_v61 (F := Ideal) x1 x2 x3 x4 x5 x6 x7 x8 x9 x18 x19) x20 x21 := by
  unfold val_main_v65 val_main_v62 val_main_v64 val_main_v63
  exact layer_eq _ _ _ _ _ _
theorem relu_v66 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) (x20 : FVec Ideal S256x256 .f32) (x21 : FVec Ideal S256 .f32) :
    val_main_v66 (F := Ideal) x1 x2 x3 x4 x5 x6 x7 x8 x9 x18 x19 x20 x21 = relu (val_main_v65 (F := Ideal) x1 x2 x3 x4 x5 x6 x7 x8 x9 x18 x19 x20 x21) := by
  unfold val_main_v66 val_main_call8_v0 val_main_call8_cst
  exact relu_eq _ _
theorem lin_v70 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) (x20 : FVec Ideal S256x256 .f32) (x21 : FVec Ideal S256 .f32) (x22 : FVec Ideal S256x256 .f32) (x23 : FVec Ideal S256 .f32) :
    val_main_v70 (F := Ideal) x1 x2 x3 x4 x5 x6 x7 x8 x9 x18 x19 x20 x21 x22 x23 = lin d256 (val_main_v66 (F := Ideal) x1 x2 x3 x4 x5 x6 x7 x8 x9 x18 x19 x20 x21) x22 x23 := by
  unfold val_main_v70 val_main_v67 val_main_v69 val_main_v68
  exact layer_eq _ _ _ _ _ _
theorem relu_v71 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) (x20 : FVec Ideal S256x256 .f32) (x21 : FVec Ideal S256 .f32) (x22 : FVec Ideal S256x256 .f32) (x23 : FVec Ideal S256 .f32) :
    val_main_v71 (F := Ideal) x1 x2 x3 x4 x5 x6 x7 x8 x9 x18 x19 x20 x21 x22 x23 = relu (val_main_v70 (F := Ideal) x1 x2 x3 x4 x5 x6 x7 x8 x9 x18 x19 x20 x21 x22 x23) := by
  unfold val_main_v71 val_main_call9_v0 val_main_call9_cst
  exact relu_eq _ _
theorem lin_v75 (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) (x20 : FVec Ideal S256x256 .f32) (x21 : FVec Ideal S256 .f32) (x22 : FVec Ideal S256x256 .f32) (x23 : FVec Ideal S256 .f32) (x24 : FVec Ideal S256x256 .f32) (x25 : FVec Ideal S256 .f32) :
    val_main_v75 (F := Ideal) x1 x2 x3 x4 x5 x6 x7 x8 x9 x18 x19 x20 x21 x22 x23 x24 x25 = lin d256 (val_main_v71 (F := Ideal) x1 x2 x3 x4 x5 x6 x7 x8 x9 x18 x19 x20 x21 x22 x23) x24 x25 := by
  unfold val_main_v75 val_main_v72 val_main_v74 val_main_v73
  exact layer_eq _ _ _ _ _ _

/-! ## The two outputs -/

/-- The reference's first output is the scale output. -/
theorem scale_eq (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) (x14 : FVec Ideal S256x256 .f32) (x15 : FVec Ideal S256 .f32) (x16 : FVec Ideal S256x256 .f32) (x17 : FVec Ideal S256 .f32) :
    val_main_v56 (F := Ideal) x1 x2 x3 x4 x5 x6 x7 x8 x9 x10 x11 x12 x13 x14 x15 x16 x17 = scale16 x1 x2 x3 x4 x5 x6 x7 x8 x9 x10 x11 x12 x13 x14 x15 x16 x17 := by
  rw [lin_v56, relu_v52, lin_v51, relu_v47, lin_v46, relu_v42, lin_v41, relu_v37, lin_v36, relu_v32, lin_v31, relu_v27, lin_v26, relu_v22, lin_v21]
  rfl

/-- The reference's second output is the shift output. -/
theorem shift_eq (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x18 : FVec Ideal S256x256 .f32) (x19 : FVec Ideal S256 .f32) (x20 : FVec Ideal S256x256 .f32) (x21 : FVec Ideal S256 .f32) (x22 : FVec Ideal S256x256 .f32) (x23 : FVec Ideal S256 .f32) (x24 : FVec Ideal S256x256 .f32) (x25 : FVec Ideal S256 .f32) :
    val_main_v75 (F := Ideal) x1 x2 x3 x4 x5 x6 x7 x8 x9 x18 x19 x20 x21 x22 x23 x24 x25 = shift16 x1 x2 x3 x4 x5 x6 x7 x8 x9 x18 x19 x20 x21 x22 x23 x24 x25 := by
  rw [lin_v75, relu_v71, lin_v70, relu_v66, lin_v65, relu_v61, lin_v60, relu_v37, lin_v36, relu_v32, lin_v31, relu_v27, lin_v26, relu_v22, lin_v21]
  rfl

end Cert.Spade.RefMlp

end
-- ==== Proof.RefValue.lean ====
/-
  The reference's result, as the same function of the arrays as the kernel's.

  Its entry (n, c, p, q) is plane (n, c)'s normalised entry under the affine map of the network's two outputs at (n, p);
  those outputs are the scale and shift outputs, and recasting [16, 256] as [16, 1, 256] puts entry (n, p) at (n, 0, p).
-/
import proofs.«167544_g7868380086984_feedfinal_290_5_alg».proof.Proof.RefNorm
import proofs.«167544_g7868380086984_feedfinal_290_5_alg».proof.Proof.RefMlp

noncomputable section

namespace Cert.Spade.Ref

open Cert.ReferenceIdeal Cert.ReferenceIdeal.Read Cert.Spade Cert.KernelIdeal.Rows
open Idealize.ShloMosaic Idealize.ShloMosaic.ValueIdx

/-- [16, 256] recast [16, 1, 256]: entry (n, 0, p) is entry (n, p). -/
theorem rows_at (G : S16x256.Idx → EReal) (h : S16x256.ShapeCasts (⟨3, ![16, 1, 256]⟩ : Shape)) (n : Fin 16) (p : Fin 256) :
    shapeCast (⟨3, ![16, 1, 256]⟩ : Shape) G h (ix3 n 0 p) = G (ix2 n p) :=
  shapeCast_apply G h _ _ (by
    rw [Shape.rowMajor_val_two, Shape.rowMajor_val_three]
    show (n : Nat) * 256 + (p : Nat) = ((n : Nat) * 1 + 0) * 256 + (p : Nat)
    omega)

/-- THE REFERENCE'S RESULT: the array normalised plane by plane under the network's scale and shift rows. -/
theorem ref_value (x0 : FVec Ideal S16x64x256x256 .f32) (x1 : FVec Ideal S16x11 .f32) (x2 : FVec Ideal S11x256 .f32) (x3 : FVec Ideal S256 .f32) (x4 : FVec Ideal S256x256 .f32) (x5 : FVec Ideal S256 .f32) (x6 : FVec Ideal S256x256 .f32) (x7 : FVec Ideal S256 .f32) (x8 : FVec Ideal S256x256 .f32) (x9 : FVec Ideal S256 .f32) (x10 : FVec Ideal S256x256 .f32) (x11 : FVec Ideal S256 .f32) (x12 : FVec Ideal S256x256 .f32) (x13 : FVec Ideal S256 .f32) (x14 : FVec Ideal S256x256 .f32) (x15 : FVec Ideal S256 .f32) (x16 : FVec Ideal S256x256 .f32) (x17 : FVec Ideal S256 .f32) (x18 : FVec Ideal S256x256 .f32) (x19 : FVec Ideal S256 .f32) (x20 : FVec Ideal S256x256 .f32) (x21 : FVec Ideal S256 .f32) (x22 : FVec Ideal S256x256 .f32) (x23 : FVec Ideal S256 .f32) (x24 : FVec Ideal S256x256 .f32) (x25 : FVec Ideal S256 .f32) :
    val_main_v83 (F := Ideal) x0 x1 x2 x3 x4 x5 x6 x7 x8 x9 x10 x11 x12 x13 x14 x15 x16 x17 x18 x19 x20 x21 x22 x23 x24 x25 = normAffine x0 (scaleA x1 x2 x3 x4 x5 x6 x7 x8 x9 x10 x11 x12 x13 x14 x15 x16 x17) (shiftA x1 x2 x3 x4 x5 x6 x7 x8 x9 x18 x19 x20 x21 x22 x23 x24 x25) := by
  refine funext fun (i : S16x64x256x256.Idx) => ?_
  rw [ref_at, RefMlp.scale_eq, RefMlp.shift_eq]
  show _ = planeNorm (fun p q => x0 (ix4 (i 0) (i 1) p q))
    (shapeCast (⟨3, ![16, 1, 256]⟩ : Shape) (scale16 x1 x2 x3 x4 x5 x6 x7 x8 x9 x10 x11 x12 x13 x14 x15 x16 x17) _ (ix3 (i 0) 0 (i 2)))
    (shapeCast (⟨3, ![16, 1, 256]⟩ : Shape) (shift16 x1 x2 x3 x4 x5 x6 x7 x8 x9 x18 x19 x20 x21 x22 x23 x24 x25) _ (ix3 (i 0) 0 (i 2))) (i 2) (i 3)
  exact congrArg₂ (fun g b => planeNorm (fun p q => x0 (ix4 (i 0) (i 1) p q)) g b (i 2) (i 3))
    (rows_at _ _ _ _).symm (rows_at _ _ _ _).symm

end Cert.Spade.Ref

end
-- ==== Proof.lean ====
/-
  Instance normalisation fused with a conditioning network, against the same computation written with whole-array
  operations.

  The kernel's program runs two regions. The first, with no grid, applies the network to the segmentation codes: four
  shared layers `max(a·W + b, 0)`, then for each of two branches three more such layers and a last one without the
  maximum; it leaves a scale row and a shift row [256] for each of the 16 samples. The second, over a 16 × 2 grid, loads
  32 planes of one sample at a time, subtracts each plane's mean, multiplies by the reciprocal square root of the
  plane's variance plus ε, then by one plus the sample's scale row and adds its shift row, row p of the plane taking entry
  p of each. The reference computes the same means and variances by host reductions over the two trailing axes, the
  same network by host products, and the same affine map by broadcasting.

  At the extended reals the two results are one function of the arrays (`Spade.normAffine` of the array and the rows
  `Rows.scaleA`, `Rows.shiftA`): a lane reduction over a block's plane and a host reduction over the array's plane are
  the same double sum, a product accumulated from zero and the host's product are the same sum over the contracted axis,
  and the divisions, the reciprocal square root and the literals are shared. No step uses that the inputs are finite.
  The frames of the two kernel programs are the generated ones; the reference's is its run with the result dropped;
  the idealization rewrote nothing.
-/
import proofs.«167544_g7868380086984_feedfinal_290_5_alg».proof.Defs
import proofs.«167544_g7868380086984_feedfinal_290_5_alg».proof.Proof.Gen.Kernel
import proofs.«167544_g7868380086984_feedfinal_290_5_alg».proof.Proof.Gen.Kernel.Skeleton
import proofs.«167544_g7868380086984_feedfinal_290_5_alg».proof.Proof.Gen.Kernel.Launch
import proofs.«167544_g7868380086984_feedfinal_290_5_alg».proof.Proof.Gen.Kernel.Points
import proofs.«167544_g7868380086984_feedfinal_290_5_alg».proof.Proof.Gen.Kernel.Frame
import proofs.«167544_g7868380086984_feedfinal_290_5_alg».proof.Proof.Gen.KernelIdeal
import proofs.«167544_g7868380086984_feedfinal_290_5_alg».proof.Proof.Gen.KernelIdeal.Skeleton
import proofs.«167544_g7868380086984_feedfinal_290_5_alg».proof.Proof.Gen.KernelIdeal.Launch
import proofs.«167544_g7868380086984_feedfinal_290_5_alg».proof.Proof.Gen.KernelIdeal.Points
import proofs.«167544_g7868380086984_feedfinal_290_5_alg».proof.Proof.Gen.KernelIdeal.Frame
import proofs.«167544_g7868380086984_feedfinal_290_5_alg».proof.Proof.Gen.ReferenceIdeal
import proofs.«167544_g7868380086984_feedfinal_290_5_alg».proof.Proof.Gen.ReferenceIdeal.Run
import proofs.«167544_g7868380086984_feedfinal_290_5_alg».proof.Proof.Gen.ReferenceIdeal.Read
import proofs.«167544_g7868380086984_feedfinal_290_5_alg».proof.Proof.Gen.Pre_finite_inputs
import proofs.«167544_g7868380086984_feedfinal_290_5_alg».proof.Proof.KernelValue
import proofs.«167544_g7868380086984_feedfinal_290_5_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the launched array normalised plane by plane under the
    network's scale and shift rows of the launched weights and biases, which agree between the two memories. -/
theorem algebraic : Cert.algebraic_KernelIdeal_ReferenceIdeal := by
  intro m ρ m' ρ' _ hagree
  refine ⟨_, Cert.KernelIdeal.RegionValues.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25⟩ := hagree c
  rw [Cert.ReferenceIdeal.Read.val_main_v83_eq, Cert.Spade.Ref.ref_value, e0, e1, e2, e3, e4, e5, e6, e7, e8, e9, e10, e11, e12, e13, e14, e15, e16, e17, e18, e19, e20, e21, e22, e23, e24, e25]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
